-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x64 : Shape := ⟨2, ![50000, 64]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg9 : FVec F S64 .f32) (main_arg10 : FVec F S64x1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S64 .f32) (main_arg10 : FVec F S64x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S50000x3 .f32) (main_arg1 : FVec F S50000x64 .f32) (main_arg2 : IVec S1600000 32) (main_arg3 : IVec S1600000 32) (main_arg4 : FVec F S129x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S129x64 .f32 := Host.absf main_arg4
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S50000x3 : Shape := ⟨2, ![50000, 3]⟩
abbrev S50000x64 : Shape := ⟨2, ![50000, 64]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S_ : Shape := ⟨0, ![]⟩
abbrev S1600000x1 : Shape := ⟨2, ![1600000, 1]⟩
abbrev S1600000x3 : Shape := ⟨2, ![1600000, 3]⟩
abbrev S1600000x64 : Shape := ⟨2, ![1600000, 64]⟩
abbrev S1x64 : Shape := ⟨2, ![1, 64]⟩
abbrev S128x64 : Shape := ⟨2, ![128, 64]⟩
abbrev S2000x3 : Shape := ⟨2, ![2000, 3]⟩
abbrev S2000x64 : Shape := ⟨2, ![2000, 64]⟩
abbrev S2000x1 : Shape := ⟨2, ![2000, 1]⟩
abbrev S2000 : Shape := ⟨1, ![2000]⟩
abbrev S2000x128 : Shape := ⟨2, ![2000, 128]⟩

abbrev nBuf : Space → Nat
  | .hbm => 55
  | .vmem => 22
  | .smem => 0
  | _ => 0

abbrev bufTy : (tb : Table) → Fin (tcTables nBuf tb) → BufTy
  | .hbm, ⟨0, _⟩ => ⟨S50000x3, .f32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x3, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x3, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1x64, .f32⟩
  | .hbm, ⟨48, _⟩ => ⟨S128x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1600000x1, .f32⟩
  | .hbm, ⟨53, _⟩ => ⟨S1600000x3, .f32⟩
  | .hbm, ⟨54, _⟩ => ⟨S1600000x64, .f32⟩
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S128x64, .f32⟩
  | .local _ .vmem, ⟨9, _⟩ => ⟨S1x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x1, .f32⟩
  | .local _ .vmem, ⟨16, _⟩ => ⟨S2000x1, .f32⟩
  | .local _ .vmem, ⟨17, _⟩ => ⟨S2000x1, .f32⟩
  | .local _ .vmem, ⟨18, _⟩ => ⟨S2000x3, .f32⟩
  | .local _ .vmem, ⟨19, _⟩ => ⟨S2000x3, .f32⟩
  | .local _ .vmem, ⟨20, _⟩ => ⟨S2000x64, .f32⟩
  | .local _ .vmem, ⟨21, _⟩ => ⟨S2000x64, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S129x64_S1x64_0_0 : S129x64.Slices ![0, 0] S1x64
  slices_S129x64_S128x64_1_0 : S129x64.Slices ![1, 0] S128x64
  shapeCasts_S64_S1x64 : S64.ShapeCasts S1x64
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  reduces_S2000x3_S2000 : S2000x3.Reduces [1] S2000
  shapeCasts_S2000_S2000x1 : S2000.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x64_S2000x64_S2000x128_d1 : Shape.Concatenates [S2000x64, S2000x64] S2000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  broadcasts_S2000x1_S2000x3 : S2000x1.Broadcasts S2000x3
  inb_S64x1_S64x1_0_0 : ∀ a, (![0, 0] : Fin 2 → Nat) a + S64x1.size a ≤ S64x1.size a
  h_S64x1 : 0 < S64x1.numel
  inb_S2000x1_S2000x1_0_0 : ∀ a, (![0, 0] : Fin 2 → Nat) a + S2000x1.size a ≤ S2000x1.size a
  h_S2000x1 : 0 < S2000x1.numel
  gather_S50000x3_S1600000x1_S1600000x3_1_0_n_n_0_1_13_wf : GatherDims.WF S50000x3 S1600000x1 S1600000x3 [1] [0] [] [0] [] 1 ![1, 3]
  gather_S50000x64_S1600000x1_S1600000x64_1_0_n_n_0_1_164_wf : GatherDims.WF S50000x64 S1600000x1 S1600000x64 [1] [0] [] [0] [] 1 ![1, 64]
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S1600000x3.size a
  hwx0_0 : ∀ i : grid0.Coords, EltTy.bits .f32 = 32 ∨ (Rect.block (s := S1600000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S1600000x3.size a
  hwx0_1 : ∀ i : grid0.Coords, EltTy.bits .f32 = 32 ∨ (Rect.block (s := S1600000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S1600000x64.size a
  hwx0_2 : ∀ i : grid0.Coords, EltTy.bits .f32 = 32 ∨ (Rect.block (s := S1600000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S1600000x64.size a
  hwx0_3 : ∀ i : grid0.Coords, EltTy.bits .f32 = 32 ∨ (Rect.block (s := S1600000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S64x1.size a
  hwx0_11 : ∀ i : grid0.Coords, EltTy.bits .f32 = 32 ∨ (Rect.block (s := S64x1) S64x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S1600000x1.size a
  hwx0_12 : ∀ i : grid0.Coords, EltTy.bits .f32 = 32 ∨ (Rect.block (s := S1600000x1) S2000x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x3.size a ≤ S1600000x3.size a
  hwx0_13 : ∀ i : grid0.Coords, EltTy.bits .f32 = 32 ∨ (Rect.block (s := S1600000x3) S2000x3.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x64.size a ≤ S1600000x64.size a
  hwx0_14 : ∀ i : grid0.Coords, EltTy.bits .f32 = 32 ∨ (Rect.block (s := S1600000x64) S2000x64.size (cc0_transform_14 i) (hinb0_14 i)).WholeWords (EltTy.packing .f32)

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v6) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v33_0) S2000x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v33_1) S2000x3.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v33_2) S2000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x3 : Shape := ⟨2, ![50000, 3]⟩
abbrev S50000x64 : Shape := ⟨2, ![50000, 64]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S_ : Shape := ⟨0, ![]⟩
abbrev S1600000x1 : Shape := ⟨2, ![1600000, 1]⟩
abbrev S1600000x3 : Shape := ⟨2, ![1600000, 3]⟩
abbrev S1600000x64 : Shape := ⟨2, ![1600000, 64]⟩
abbrev S1600000x129 : Shape := ⟨2, ![1600000, 129]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x3, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x3, .f32⟩
  | .hbm, ⟨29, _⟩ => ⟨S1600000x3, .f32⟩
  | .hbm, ⟨30, _⟩ => ⟨S1600000x3, .f32⟩
  | .hbm, ⟨31, _⟩ => ⟨S_, .f32⟩
  | .hbm, ⟨32, _⟩ => ⟨S1600000, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x129, .f32⟩
  | .hbm, ⟨53, _⟩ => ⟨S1600000x64, .f32⟩
  | .hbm, ⟨54, _⟩ => ⟨S1x64, .f32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S1600000x64, .f32⟩
  | .hbm, ⟨64, _⟩ => ⟨S1600000x64, .f32⟩
  | .hbm, ⟨65, _⟩ => ⟨S1600000x64, .f32⟩
  | .hbm, ⟨66, _⟩ => ⟨S1600000x64, .f32⟩
  | .hbm, ⟨67, _⟩ => ⟨S1x64, .f32⟩
  | .hbm, ⟨68, _⟩ => ⟨S1600000x64, .f32⟩
  | .hbm, ⟨69, _⟩ => ⟨S1600000x64, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S1600000x64, .f32⟩
  | .hbm, ⟨77, _⟩ => ⟨S1600000x64, .f32⟩
  | .hbm, ⟨78, _⟩ => ⟨S1600000x64, .f32⟩
  | .hbm, ⟨79, _⟩ => ⟨S1600000x1, .f32⟩
  | .hbm, ⟨80, _⟩ => ⟨S_, .f32⟩
  | .hbm, ⟨81, _⟩ => ⟨S1600000x1, .f32⟩
  | .hbm, ⟨82, _⟩ => ⟨S1600000x1, .f32⟩
  | .hbm, ⟨83, _⟩ => ⟨S1600000x3, .f32⟩
  | .hbm, ⟨84, _⟩ => ⟨S1600000x3, .f32⟩
  | .hbm, ⟨85, _⟩ => ⟨S1600000x64, .f32⟩
  | .hbm, ⟨86, _⟩ => ⟨S1x64, .f32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S1600000x64, .f32⟩
  | .hbm, ⟨91, _⟩ => ⟨S_, .f32⟩
  | .hbm, ⟨92, _⟩ => ⟨S1600000x64, .f32⟩
  | .hbm, ⟨93, _⟩ => ⟨S1600000x64, .f32⟩
  | .hbm, ⟨94, _⟩ => ⟨S_, .f32⟩
  | .hbm, ⟨95, _⟩ => ⟨S1600000x64, .f32⟩
  | .hbm, ⟨96, _⟩ => ⟨S1600000x64, .f32⟩
  | .hbm, ⟨97, _⟩ => ⟨S1600000x64, .f32⟩
  | .hbm, ⟨98, _⟩ => ⟨S1600000x1, .f32⟩
  | .hbm, ⟨99, _⟩ => ⟨S1600000x1, .f32⟩
  | .hbm, ⟨100, _⟩ => ⟨S1600000x3, .f32⟩
  | .hbm, ⟨101, _⟩ => ⟨S1600000x3, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v42 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  concatenates_S1600000x1_S1600000x64_S1600000x64_S1600000x129_d1 : Shape.Concatenates [S1600000x1, S1600000x64, S1600000x64] S1600000x129 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000x1 : S_.BroadcastsInDim S1600000x1 (![] : Fin 0 → Fin S1600000x1.rank)
  bcast_S1600000x1_S1600000x3_0_1 : S1600000x1.BroadcastsInDim S1600000x3 (![0, 1] : Fin 2 → Fin S1600000x3.rank)
  gather_S50000x3_S1600000x1_S1600000x3_1_0_n_n_0_1_13_wf : GatherDims.WF S50000x3 S1600000x1 S1600000x3 [1] [0] [] [0] [] 1 ![1, 3]
  gather_S50000x64_S1600000x1_S1600000x64_1_0_n_n_0_1_164_wf : GatherDims.WF S50000x64 S1600000x1 S1600000x64 [1] [0] [] [0] [] 1 ![1, 64]
  dot_S1600000x129_S129x64_S1600000x64_1_0_0_1_n_n_wf : DotDims.WF S1600000x129 S129x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x129_S129x64_S1600000x64_1_0_0_1_n_n : DotDims S1600000x129 S129x64 S1600000x64 where
  lhsContracting := [1]
  rhsContracting := [0]
  lhsNonContracting := [0]
  rhsNonContracting := [1]
  lhsBatch := []
  rhsBatch := []
  wf := dot_S1600000x129_S129x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.EdgeSpec.lean ====
/-
  One edge of a geometric message-passing layer, as exact arithmetic on the extended reals.

  An edge e joins a source and a destination node. From the two endpoints' coordinates (two 3-vectors u, v) and
  features (two 64-vectors a, b) the layer computes
    rad   = Σ_c (u c − v c)²                                              the squared distance,
    z₁ j  = (rad · W₁[0, j] + Σ_{k<128} (a ‖ b) k · W₁[1 + k, j]) + b₁ j     the first linear layer on (rad, a, b),
    h₁    = silu z₁,   z₂ = h₁ · W₂ + b₂,   f = silu z₂                    the edge feature,
    z₃    = f · W₃ + b₃,   g = tanh (Σ_k silu (z₃ k) · W₄[k, 0])           the gate,
    t c   = (u c − v c) / (√rad + ε) · g                                  the coordinate shift,
  where silu z = z · 1/(1 + e^(−z)) and a ‖ b is the two feature vectors set end to end. The first layer is written
  with the weight's first row apart: a product of the 129-vector (rad, a, b) with the 129 × 64 matrix W₁ is this sum
  once its first term is taken out, by commutativity and associativity of + alone, so nothing here asks the
  values to be finite.

  The per-edge functions take the weights as plain functions of their coordinates; `radial`, `feature` and `shift`
  are the three result arrays over E edges, row e of each read off row e of the four per-edge input arrays.
-/
import Idealize.ShloMosaic.PureOps.Ideal
import Idealize.ShloMosaic.Lib.ValueIdx

noncomputable section

open scoped BigOperators

namespace Cert.Edge

open Idealize.ShloMosaic Idealize.ShloMosaic.ValueIdx

/-- An R × C array of extended reals, indexed as the programs index their rank-2 arrays. -/
abbrev Mat (R C : ℕ) : Type := (⟨2, ![R, C]⟩ : Shape).Idx → EReal
/-- A vector of n extended reals, indexed as the programs index their rank-1 arrays. -/
abbrev Row (n : ℕ) : Type := (⟨1, ![n]⟩ : Shape).Idx → EReal

/-- Row e of a matrix as a function of the column. -/
abbrev row {R C : ℕ} (x : Mat R C) (e : Fin R) : Fin C → EReal := fun a => x (ix2 e a)

/-- ε: the single-precision number nearest 10⁻⁸, read exactly. -/
def eps : EReal := Ideal.ofBits .f32 0x322BCC77#32

/-- silu z = z · σ(z), σ the logistic function 1 / (1 + e^(−z)). -/
def silu (z : EReal) : EReal := z * Ideal.logistic z

/-- The squared length of u − v. -/
def sq (u v : Fin 3 → EReal) : EReal := ∑ c : Fin 3, (u c - v c) * (u c - v c)

/-- Two 64-vectors set end to end. -/
def cat (a b : Fin 64 → EReal) (k : Fin 128) : EReal :=
  if h : k.val < 64 then a ⟨k.val, h⟩ else b ⟨k.val - 64, by have := k.isLt; omega⟩

/-- The first linear layer on (rad, a ‖ b): the weight's first row `w0` meets rad, its other 128 rows `w` meet a ‖ b. -/
def pre1 (rad : EReal) (c : Fin 128 → EReal) (w0 : Fin 64 → EReal) (w : Fin 128 → Fin 64 → EReal) (b : Fin 64 → EReal)
    (j : Fin 64) : EReal :=
  (rad * w0 j + ∑ k : Fin 128, c k * w k j) + b j

/-- A 64 → 64 linear layer with bias. -/
def affine (x : Fin 64 → EReal) (w : Fin 64 → Fin 64 → EReal) (b : Fin 64 → EReal) (j : Fin 64) : EReal :=
  (∑ k : Fin 64, x k * w k j) + b j

/-- The edge feature: silu of the second layer over silu of the first. -/
def feat (rad : EReal) (c : Fin 128 → EReal) (w0 : Fin 64 → EReal) (w : Fin 128 → Fin 64 → EReal) (b1 : Fin 64 → EReal)
    (w2 : Fin 64 → Fin 64 → EReal) (b2 : Fin 64 → EReal) (j : Fin 64) : EReal :=
  silu (affine (fun k => silu (pre1 rad c w0 w b1 k)) w2 b2 j)

/-- The gate: tanh of the last, one-column layer over silu of the third. -/
def gate (f : Fin 64 → EReal) (w3 : Fin 64 → Fin 64 → EReal) (b3 : Fin 64 → EReal) (w4 : Fin 64 → EReal) : EReal :=
  Ideal.tanh (∑ k : Fin 64, silu (affine f w3 b3 k) * w4 k)

/-- The coordinate shift: the difference over (its length + ε), times the gate. -/
def move (u v : Fin 3 → EReal) (rad g : EReal) (c : Fin 3) : EReal :=
  Ideal.div (u c - v c) (Ideal.sqrt rad + eps) * g

section Arrays

variable {R : ℕ} (xs xd : Mat R 3) (hs hd : Mat R 64) (W1 : Mat 129 64) (b1 : Row 64) (W2 : Mat 64 64) (b2 : Row 64)
  (W3 : Mat 64 64) (b3 : Row 64) (W4 : Mat 64 1)

/-- Edge e's squared distance. -/
def radAt (e : Fin R) : EReal := sq (row xs e) (row xd e)

/-- Edge e's feature, entry j. -/
def featAt (e : Fin R) (j : Fin 64) : EReal :=
  feat (radAt xs xd e) (cat (row hs e) (row hd e)) (row W1 ⟨0, by omega⟩) (fun k => row W1 ⟨k.val + 1, by omega⟩)
    (fun j => b1 (ix1 j)) (fun k => row W2 k) (fun j => b2 (ix1 j)) j

/-- Edge e's gate. -/
def gateAt (e : Fin R) : EReal :=
  gate (featAt xs xd hs hd W1 b1 W2 b2 e) (fun k => row W3 k) (fun j => b3 (ix1 j)) (fun k => W4 (ix2 k (0 : Fin 1)))

/-- Edge e's coordinate shift, component c. -/
def moveAt (e : Fin R) (c : Fin 3) : EReal :=
  move (row xs e) (row xd e) (radAt xs xd e) (gateAt xs xd hs hd W1 b1 W2 b2 W3 b3 W4 e) c

/-- The squared distances as an R × 1 array. -/
def radial : Mat R 1 := fun i => radAt xs xd ⟨(i 0).val, idx2_lt0 i⟩

/-- The edge features as an R × 64 array. -/
def feature : Mat R 64 := fun i => featAt xs xd hs hd W1 b1 W2 b2 ⟨(i 0).val, idx2_lt0 i⟩ ⟨(i 1).val, idx2_lt1 i⟩

/-- The coordinate shifts as an R × 3 array. -/
def shift : Mat R 3 := fun i => moveAt xs xd hs hd W1 b1 W2 b2 W3 b3 W4 ⟨(i 0).val, idx2_lt0 i⟩ ⟨(i 1).val, idx2_lt1 i⟩

theorem radial_ix2 (e : Fin R) (u : Fin 1) : radial xs xd (ix2 e u) = radAt xs xd e := rfl
theorem feature_ix2 (e : Fin R) (j : Fin 64) : feature xs xd hs hd W1 b1 W2 b2 (ix2 e j) = featAt xs xd hs hd W1 b1 W2 b2 e j := rfl
theorem shift_ix2 (e : Fin R) (c : Fin 3) :
    shift xs xd hs hd W1 b1 W2 b2 W3 b3 W4 (ix2 e c) = moveAt xs xd hs hd W1 b1 W2 b2 W3 b3 W4 e c := rfl

end Arrays

end Cert.Edge

end
-- ==== Proof.KHost.lean ====
/-
  What the region finds in the arrays the host wrote before it.

  Before the one launch the host program gathers, for every edge, its two endpoints' coordinate rows and feature rows
  (an index below zero counts from the end, as array indexing does), takes the first row of W₁ and its other 128
  rows apart, and lays the three bias vectors out as 1 × 64 rows. Here each of those nine arrays is named as its
  operations' term of the arguments, and the five small ones are read at an entry: the row slice of W₁ at (0, j) is
  W₁(0, j), the lower slice at (k, j) is W₁(k + 1, j), a bias laid out as a row reads at (0, j) its entry j.
-/
import proofs.«106035_j15135464751165_1_alg».proof.Proof.Gen.KernelIdeal.Frame
import Idealize.ShloMosaic.Lib.StableHlo.Run
import Idealize.ShloMosaic.Lib.Pipeline.Value
import Idealize.ShloMosaic.Lib.ValueIdx

noncomputable section

namespace Cert.Edge.Host

open Idealize.ShloMosaic Idealize.ShloMosaic.TcCoe Idealize.SL.Sem Idealize.ShloMosaic.ValueIdx Idealize.ShloMosaic.StableHlo
open Cert.KernelIdeal Cert.KernelIdeal.Gen

variable {F : FTy → Type} [FloatOps F]
variable (m : (ℓ : Loc nD τ sig) → Buf (Elt F) ℓ)

/-- An edge list's node indices made gather start indices: a negative index has the node count added, and the
    vector becomes a one-column array. -/
abbrev starts (idx : (⟨S1600000, .i32⟩ : BufTy).Contents (Elt F)) : (⟨S1600000x1, .i32⟩ : BufTy).Contents (Elt F) :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 50000#32))) idx)

/-- The source endpoints' coordinates. -/
theorem srcCoords (c : Dev nD) : (V m c main_v6 : S1600000x3.Idx → Elt F .f32)
    = Host.gather gather_S50000x3_S1600000x1_S1600000x3_1_0_n_n_0_1_13 (m ((c : Thread nD τ).loc main_arg0))
        (starts (m ((c : Thread nD τ).loc main_arg2))) := by
  dsimp only [Gen.V, Gen.hostOps0]; after_results <;> rfl

set_option maxHeartbeats 8000000 in
/-- The destination endpoints' coordinates. -/
theorem dstCoords (c : Dev nD) : (V m c main_v13 : S1600000x3.Idx → Elt F .f32)
    = Host.gather gather_S50000x3_S1600000x1_S1600000x3_1_0_n_n_0_1_13 (m ((c : Thread nD τ).loc main_arg0))
        (starts (m ((c : Thread nD τ).loc main_arg3))) := by
  dsimp only [Gen.V, Gen.hostOps0]; after_results <;> rfl

set_option maxHeartbeats 8000000 in
/-- The source endpoints' features. -/
theorem srcFeats (c : Dev nD) : (V m c main_v20 : S1600000x64.Idx → Elt F .f32)
    = Host.gather gather_S50000x64_S1600000x1_S1600000x64_1_0_n_n_0_1_164 (m ((c : Thread nD τ).loc main_arg1))
        (starts (m ((c : Thread nD τ).loc main_arg2))) := by
  dsimp only [Gen.V, Gen.hostOps0]; after_results <;> rfl

set_option maxHeartbeats 8000000 in
/-- The destination endpoints' features. -/
theorem dstFeats (c : Dev nD) : (V m c main_v27 : S1600000x64.Idx → Elt F .f32)
    = Host.gather gather_S50000x64_S1600000x1_S1600000x64_1_0_n_n_0_1_164 (m ((c : Thread nD τ).loc main_arg1))
        (starts (m ((c : Thread nD τ).loc main_arg3))) := by
  dsimp only [Gen.V, Gen.hostOps0]; after_results <;> rfl

/-- W₁'s first row, as a 1 × 64 array. -/
theorem w1Head (c : Dev nD) : (V m c main_v28 : S1x64.Idx → Elt F .f32)
    = extractStridedSlice S1x64 ![0, 0] (m ((c : Thread nD τ).loc main_arg4)) slices_S129x64_S1x64_0_0 := by
  dsimp only [Gen.V, Gen.hostOps0]; after_results <;> rfl

/-- W₁'s rows 1 … 128. -/
theorem w1Tail (c : Dev nD) : (V m c main_v29 : S128x64.Idx → Elt F .f32)
    = extractStridedSlice S128x64 ![1, 0] (m ((c : Thread nD τ).loc main_arg4)) slices_S129x64_S128x64_1_0 := by
  dsimp only [Gen.V, Gen.hostOps0]; after_results <;> rfl

/-- b₁ as a 1 × 64 row. -/
theorem b1Row (c : Dev nD) : (V m c main_v30 : S1x64.Idx → Elt F .f32)
    = shapeCast S1x64 (m ((c : Thread nD τ).loc main_arg5)) shapeCasts_S64_S1x64 := by
  dsimp only [Gen.V, Gen.hostOps0]; after_results <;> rfl

/-- b₂ as a 1 × 64 row. -/
theorem b2Row (c : Dev nD) : (V m c main_v31 : S1x64.Idx → Elt F .f32)
    = shapeCast S1x64 (m ((c : Thread nD τ).loc main_arg7)) shapeCasts_S64_S1x64 := by
  dsimp only [Gen.V, Gen.hostOps0]; after_results <;> rfl

/-- b₃ as a 1 × 64 row. -/
theorem b3Row (c : Dev nD) : (V m c main_v32 : S1x64.Idx → Elt F .f32)
    = shapeCast S1x64 (m ((c : Thread nD τ).loc main_arg9)) shapeCasts_S64_S1x64 := by
  dsimp only [Gen.V, Gen.hostOps0]; after_results <;> rfl

/-! ## The five small arrays at an entry -/

/-- The first-row slice at (0, j) is the matrix at (0, j). -/
theorem head_at (W : S129x64.Idx → Elt F .f32) (j : Fin 64) :
    extractStridedSlice S1x64 ![0, 0] W slices_S129x64_S1x64_0_0 (ix2 (0 : Fin 1) j) = W (ix2 (⟨0, by omega⟩ : Fin 129) j) :=
  extractStridedSlice_apply _ W _ _ _ fun a => by
    match a with
    | ⟨0, _⟩ => rfl
    | ⟨1, _⟩ => show j.val = 0 + j.val; omega

/-- The lower slice at (k, j) is the matrix at (k + 1, j). -/
theorem tail_at (W : S129x64.Idx → Elt F .f32) (k : Fin 128) (j : Fin 64) :
    extractStridedSlice S128x64 ![1, 0] W slices_S129x64_S128x64_1_0 (ix2 k j) = W (ix2 (⟨k.val + 1, by omega⟩ : Fin 129) j) :=
  extractStridedSlice_apply _ W _ _ _ fun a => by
    match a with
    | ⟨0, _⟩ => show k.val + 1 = 1 + k.val; omega
    | ⟨1, _⟩ => show j.val = 0 + j.val; omega

/-- A 64-vector laid out as a 1 × 64 row reads at (0, j) its entry j. -/
theorem biasRow_at (b : S64.Idx → Elt F .f32) (j : Fin 64) :
    shapeCast S1x64 b shapeCasts_S64_S1x64 (ix2 (0 : Fin 1) j) = b (ix1 j) :=
  shapeCast_apply b _ _ _ (by
    rw [Shape.rowMajor_val_one, Shape.rowMajor_val_two]
    show j.val = 0 * 64 + j.val
    omega)

end Cert.Edge.Host

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.KPay.lean ====
/-
  The kernel body's arithmetic, read at one entry of each stored block.

  The body works on a block of 2000 edges at a time. Its three stores hold, at row p of the block,
    the squared distance of row p of the two coordinate blocks,
    the edge feature of row p (from that squared distance, row p of the two feature blocks, and the weights), and
    the coordinate shift of row p (the difference over its length + ε, times the gate of the feature).
  Each lemma reads one payload at an entry (p, ·) and finds the per-edge function of `Cert.Edge` of the blocks' rows p.
-/
import proofs.«106035_j15135464751165_1_alg».proof.Proof.Gen.KernelIdeal.Skeleton
import proofs.«106035_j15135464751165_1_alg».proof.Proof.EdgeSpec
import proofs.«106035_j15135464751165_1_alg».proof.Proof.LibDot
import proofs.«106035_j15135464751165_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Edge.Block

open Idealize.ShloMosaic Idealize.ShloMosaic.ValueIdx Cert.KernelIdeal Cert.KernelIdeal.Gen Cert.Edge

/-! ## Layout operations read at an entry -/

/-- A row `[1, b]` broadcast to `[a, b]` reads, at `(p, q)`, the row's entry of column `q`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- Two `[2000, 64]` blocks joined along the columns: row `p` of the result is row `p` of the first set end to end
    with row `p` of the second. -/
theorem concatenate_cols_apply (a b : Mat 2000 64) (h : Shape.Concatenates [S2000x64, S2000x64] S2000x128 1)
    (p : Fin 2000) (k : Fin 128) :
    concatenate S2000x128 1 [⟨S2000x64, a⟩, ⟨S2000x64, b⟩] h (ix2 p k) = cat (row a p) (row b p) k := by
  unfold cat
  by_cases hk : k.val < 64
  · rw [dif_pos hk]
    refine concatenate_pair_apply_left (1 : Fin 2) a b h (ix2 p k) rfl (ix2 p ⟨k.val, hk⟩) fun ax => ?_
    match ax with
    | ⟨0, _⟩ => rfl
    | ⟨1, _⟩ => rfl
  · rw [dif_neg hk]
    have hk' : k.val - 64 < 64 := by have := k.isLt; omega
    refine concatenate_pair_apply_right (1 : Fin 2) a b h (ix2 p k) rfl rfl (ix2 p ⟨k.val - 64, hk'⟩) (fun ax hax => ?_) ?_
    · match ax with
      | ⟨0, _⟩ => rfl
      | ⟨1, _⟩ => exact absurd rfl hax
    · show k.val - 64 + 64 = k.val
      omega

/-! ## The elementwise pieces -/

/-- z · σ(z) at an entry. -/
theorem pay1_at (v : FVec Ideal S2000x64 .f32) (i : S2000x64.Idx) : k0_pay1 (F := Ideal) v i = silu (v i) := rfl

/-- The difference of the two coordinate blocks at an entry. -/
theorem pay3_at (x0 x1 : Vec Ideal S2000x3 .f32) (i : S2000x3.Idx) : k0_pay3 (F := Ideal) x0 x1 i = x0 i - x1 i := by
  show subf (F := Ideal) (shapeCast S2000x3 (x0 : FVec Ideal S2000x3 .f32) shapeCasts_S2000x3_S2000x3)
      (shapeCast S2000x3 (x1 : FVec Ideal S2000x3 .f32) shapeCasts_S2000x3_S2000x3) i = _
  rw [shapeCast_self, shapeCast_self]
  rfl

/-! ## A product with a weight block, read at an entry -/

/-- The 128-column block times the 128 × 64 weight. -/
theorem dot128_at (A : FVec Ideal S2000x128 .bf16) (W : FVec Ideal S128x64 .bf16) (p : Fin 2000) (j : Fin 64) :
    matmul dot_S2000x128_S128x64_S2000x64_1_0_0_1_n_n none A W (constant S2000x64 .f32 0x00000000#32) (ix2 p j)
      = ∑ k : Fin 128, A (ix2 p k) * W (ix2 k j) :=
  Cert.LibDot.matmul_zero_at _ rfl rfl rfl rfl rfl rfl none A W p j

/-- A 64-column block times a 64 × 64 weight. -/
theorem dot64_at (A : FVec Ideal S2000x64 .bf16) (W : FVec Ideal S64x64 .bf16) (p : Fin 2000) (j : Fin 64) :
    matmul dot_S2000x64_S64x64_S2000x64_1_0_0_1_n_n none A W (constant S2000x64 .f32 0x00000000#32) (ix2 p j)
      = ∑ k : Fin 64, A (ix2 p k) * W (ix2 k j) :=
  Cert.LibDot.matmul_zero_at _ rfl rfl rfl rfl rfl rfl none A W p j

/-- A 64-column block times a 64 × 1 weight. -/
theorem dot1_at (A : FVec Ideal S2000x64 .bf16) (W : FVec Ideal S64x1 .bf16) (p : Fin 2000) (u : Fin 1) :
    matmul dot_S2000x64_S64x1_S2000x1_1_0_0_1_n_n none A W (constant S2000x1 .f32 0x00000000#32) (ix2 p u)
      = ∑ k : Fin 64, A (ix2 p k) * W (ix2 k u) :=
  Cert.LibDot.matmul_zero_at _ rfl rfl rfl rfl rfl rfl none A W p u

/-- A 64 → 64 linear layer with its bias row added to every row: at (p, j) the sum over k of A(p, k) · W(k, j), plus
    B(0, j). -/
theorem linear64_at (A : FVec Ideal S2000x64 .f32) (W : Vec Ideal S64x64 .f32) (B : Vec Ideal S1x64 .f32)
    (h : FTy.bits .bf16 < FTy.bits .f32) (hB : S1x64.ShapeCasts S1x64) (hb : S1x64.Broadcasts S2000x64)
    (p : Fin 2000) (j : Fin 64) :
    addf (matmul dot_S2000x64_S64x64_S2000x64_1_0_0_1_n_n none (truncf .bf16 A h) (truncf .bf16 W h)
        (constant S2000x64 .f32 0x00000000#32)) (broadcastTo S2000x64 (shapeCast S1x64 B hB) hb) (ix2 p j)
      = (∑ k : Fin 64, A (ix2 p k) * W (ix2 k j)) + B (ix2 0 j) := by
  show _ + _ = _
  refine congrArg₂ (· + ·) (dot64_at _ _ p j) ?_
  rw [shapeCast_self]
  exact broadcastTo_1b_ab_apply B hb p j

/-- The first linear layer at (p, k): the squared-distance column times the first weight row, plus the joined feature
    blocks times the other 128 weight rows, plus the bias row. -/
theorem pre1_at (rad : FVec Ideal S2000x1 .f32) (a b : Vec Ideal S2000x64 .f32) (W : Vec Ideal S128x64 .f32)
    (w0 b1 : Vec Ideal S1x64 .f32) (h : FTy.bits .bf16 < FTy.bits .f32) (ha : S2000x64.ShapeCasts S2000x64)
    (hcat : Shape.Concatenates [S2000x64, S2000x64] S2000x128 1) (hW : S128x64.ShapeCasts S128x64)
    (hr : S2000x1.Broadcasts S2000x64) (hB : S1x64.ShapeCasts S1x64) (hb : S1x64.Broadcasts S2000x64)
    (p : Fin 2000) (k : Fin 64) :
    addf (addf (mulf (broadcastTo S2000x64 rad hr) (broadcastTo S2000x64 (shapeCast S1x64 w0 hB) hb))
        (matmul dot_S2000x128_S128x64_S2000x64_1_0_0_1_n_n none
          (truncf .bf16 (concatenate S2000x128 1 [⟨S2000x64, shapeCast S2000x64 a ha⟩, ⟨S2000x64, shapeCast S2000x64 b ha⟩] hcat) h)
          (truncf .bf16 (shapeCast S128x64 W hW) h) (constant S2000x64 .f32 0x00000000#32)))
        (broadcastTo S2000x64 (shapeCast S1x64 b1 hB) hb) (ix2 p k)
      = pre1 (rad (ix2 p (0 : Fin 1))) (cat (row a p) (row b p)) (row w0 0) (fun l => row W l) (row b1 0) k := by
  unfold pre1
  show (_ * _ + _) + _ = _
  rw [shapeCast_self w0, shapeCast_self b1, shapeCast_self a, shapeCast_self b, shapeCast_self W]
  refine congrArg₂ (· + ·) (congrArg₂ (· + ·) (congrArg₂ (· * ·) ?_ ?_) ?_) ?_
  · exact broadcastTo_a1_ab_apply rad hr p k
  · exact broadcastTo_1b_ab_apply w0 hb p k
  · refine (dot128_at _ _ p k).trans ?_
    refine Finset.sum_congr rfl fun l _ => congrArg₂ (· * ·) ?_ rfl
    exact concatenate_cols_apply a b hcat p l
  · exact broadcastTo_1b_ab_apply b1 hb p k

/-- The shift's arithmetic at (p, c), over any difference block v4, squared-distance column v7 and second-layer
    pre-activation v37: the difference over (the root of the squared distance + ε), times tanh of the one-column layer
    over silu of the third layer, whose input row is silu of row p of v37. -/
theorem pay2_at (v4 : FVec Ideal S2000x3 .f32) (v7 : FVec Ideal S2000x1 .f32) (v37 : FVec Ideal S2000x64 .f32)
    (x9 : Vec Ideal S64x64 .f32) (x10 : Vec Ideal S1x64 .f32) (x11 : Vec Ideal S64x1 .f32) (p : Fin 2000) (c : Fin 3) :
    k0_pay2 (F := Ideal) v4 v7 v37 x9 x10 x11 (ix2 p c)
      = Ideal.div (v4 (ix2 p c)) (Ideal.sqrt (v7 (ix2 p (0 : Fin 1))) + eps)
          * Ideal.tanh (∑ k : Fin 64,
              silu ((∑ l : Fin 64, k0_pay1 (F := Ideal) v37 (ix2 p l) * x9 (ix2 l k)) + x10 (ix2 0 k)) * x11 (ix2 k (0 : Fin 1))) := by
  unfold k0_pay2
  show Ideal.div _ _ * _ = _
  refine congrArg₂ (· * ·) (congrArg₂ Ideal.div rfl ?_) ?_
  · refine (broadcastTo_a1_ab_apply _ _ p c).trans ?_
    rfl
  · refine (broadcastTo_a1_ab_apply _ _ p c).trans ?_
    show Ideal.tanh _ = _
    refine congrArg Ideal.tanh ?_
    refine (dot1_at _ _ p 0).trans ?_
    refine Finset.sum_congr rfl fun k _ => congrArg₂ (· * ·) ?_ rfl
    show silu _ = _
    refine congrArg silu ?_
    exact linear64_at _ _ _ _ _ _ p k

/-- The stored squared distance at row p: the sum over the three coordinates of the squared difference. -/
theorem radial_at (x0 x1 : Vec Ideal S2000x3 .f32) (p : Fin 2000) (u : Fin 1) :
    k0_pay4 (F := Ideal) x0 x1 (ix2 p u) = sq (row x0 p) (row x1 p) := by
  unfold k0_pay4 sq
  refine (shapeCast_a_a1_apply _ _ p u).trans ?_
  refine (multiReduction_add_rows_apply _ _ _ _ _ p).trans ?_
  refine Finset.sum_congr rfl fun c _ => ?_
  show k0_pay3 x0 x1 (ix2 p c) * k0_pay3 x0 x1 (ix2 p c) = _
  rw [pay3_at]

/-- The stored edge feature at (p, j). -/
theorem feature_at (x0 x1 : Vec Ideal S2000x3 .f32) (x2 x3 : Vec Ideal S2000x64 .f32) (x4 : Vec Ideal S128x64 .f32)
    (x5 x6 : Vec Ideal S1x64 .f32) (x7 : Vec Ideal S64x64 .f32) (x8 : Vec Ideal S1x64 .f32) (p : Fin 2000) (j : Fin 64) :
    k0_pay1 (F := Ideal) (k0_pay5 x0 x1 x2 x3 x4 x5 x6 x7 x8) (ix2 p j)
      = feat (sq (row x0 p) (row x1 p)) (cat (row x2 p) (row x3 p)) (row x5 0) (fun k => row x4 k) (row x6 0)
          (fun k => row x7 k) (row x8 0) j := by
  rw [pay1_at]
  unfold feat affine
  refine congrArg silu ?_
  unfold k0_pay5
  refine (linear64_at _ _ _ _ _ _ p j).trans ?_
  refine congrArg₂ (· + ·) (Finset.sum_congr rfl fun k _ => congrArg₂ (· * ·) ?_ rfl) rfl
  refine (pay1_at _ _).trans (congrArg silu ?_)
  refine (pre1_at _ _ _ _ _ _ _ _ _ _ _ _ _ p k).trans ?_
  rw [radial_at]

/-- The stored coordinate shift at (p, c). -/
theorem shift_at (x0 x1 : Vec Ideal S2000x3 .f32) (x2 x3 : Vec Ideal S2000x64 .f32) (x4 : Vec Ideal S128x64 .f32)
    (x5 x6 : Vec Ideal S1x64 .f32) (x7 : Vec Ideal S64x64 .f32) (x8 : Vec Ideal S1x64 .f32) (x9 : Vec Ideal S64x64 .f32)
    (x10 : Vec Ideal S1x64 .f32) (x11 : Vec Ideal S64x1 .f32) (p : Fin 2000) (c : Fin 3) :
    k0_pay2 (F := Ideal) (k0_pay3 x0 x1) (k0_pay4 x0 x1) (k0_pay5 x0 x1 x2 x3 x4 x5 x6 x7 x8) x9 x10 x11 (ix2 p c)
      = move (row x0 p) (row x1 p) (sq (row x0 p) (row x1 p))
          (gate (feat (sq (row x0 p) (row x1 p)) (cat (row x2 p) (row x3 p)) (row x5 0) (fun k => row x4 k) (row x6 0)
              (fun k => row x7 k) (row x8 0))
            (fun k => row x9 k) (row x10 0) (fun k => x11 (ix2 k (0 : Fin 1)))) c := by
  unfold move gate affine
  refine (pay2_at _ _ _ _ _ _ p c).trans ?_
  rw [pay3_at, radial_at x0 x1 p 0]
  refine congrArg₂ (· * ·) rfl (congrArg Ideal.tanh (Finset.sum_congr rfl fun k _ => congrArg₂ (· * ·)
    (congrArg silu (congrArg₂ (· + ·) (Finset.sum_congr rfl fun l _ => congrArg₂ (· * ·) ?_ rfl) rfl)) rfl))
  exact feature_at x0 x1 x2 x3 x4 x5 x6 x7 x8 p l

end Cert.Edge.Block

end
-- ==== Proof.KFinal.lean ====
/-
  From blocks to arrays: after the launch each result array is the per-edge specification of the arrays the region
  was given.

  The grid has 800 points; point t's blocks of the four per-edge inputs and of the three results are rows
  2000·t … 2000·t + 1999, and its blocks of the eight weight operands are those operands whole. So row p of what
  point t writes back is the specification's row 2000·t + p (the body's arithmetic at a row: `Cert.Edge.Block`), the
  800 blocks of 2000 rows cover all 1,600,000 rows, and each result array ends as `radial`, `shift`, `feature` of the
  gathered arrays and the weights.
-/
import proofs.«106035_j15135464751165_1_alg».proof.Proof.Gen.KernelIdeal.Value
import proofs.«106035_j15135464751165_1_alg».proof.Proof.EdgeSpec
import proofs.«106035_j15135464751165_1_alg».proof.Proof.KPay
import proofs.«106035_j15135464751165_1_alg».proof.Proof.KHost
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Edge.Final

open Cert.KernelIdeal Cert.KernelIdeal.Gen Cert.KernelIdeal.Value Cert.Edge

variable (m : (ℓ : Loc nD τ sig) → Buf (Elt Ideal) ℓ) (ρ : Dev nD → PrngReg)

theorem hz : (![0, 0] : Fin 2 → Nat) = fun _ => 0 := funext fun a => by fin_cases a <;> rfl

/-- The seven windows that move with the grid: at point t their block index is (t, 0). Decided over the 800 points. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The eight weight windows: block index (0, 0) at every point. Decided over the 800 points. -/
theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Row p of point t's blocks is edge 2000·t + p. -/
abbrev edge (t : Fin cfg0.N) (p : Fin 2000) : Fin 1600000 :=
  ⟨t.val * 2000 + p.val, by
    have h : t.val < 800 := Nat.lt_of_lt_of_eq t.isLt (show cfg0.N = 800 from N_0)
    have := p.isLt; omega⟩

/-! ## The input windows' blocks, read at an entry -/

/-- Row p of point t's block of window 0 is row t·2000 + p of the array it is cut from. -/
theorem blk0 (c : Dev nD) (t : Fin cfg0.N) (p : Fin 2000) (a : Fin 3) :
    (iblk m c 0 t : Vec Ideal S2000x3 .f32) (ix2 p a) = (V m c main_v6 : S1600000x3.Idx → EReal) (ix2 (edge t p) a) := by
  unfold iblk
  rw [View.read_apply]
  show V m c main_v6 _ = V m c main_v6 _
  congr 1
  funext b; apply Fin.ext
  match b with
  | ⟨0, _⟩ => show win0_0.index t (0 : Fin 2) * 2000 + 1 * p.val = t.val * 2000 + p.val; rw [(idx_rows t).1.1]; omega
  | ⟨1, _⟩ => show win0_0.index t (1 : Fin 2) * 3 + 1 * a.val = a.val; rw [(idx_rows t).1.2]; omega

/-- Row p of point t's block of window 1 is row t·2000 + p of the array it is cut from. -/
theorem blk1 (c : Dev nD) (t : Fin cfg0.N) (p : Fin 2000) (a : Fin 3) :
    (iblk m c 1 t : Vec Ideal S2000x3 .f32) (ix2 p a) = (V m c main_v13 : S1600000x3.Idx → EReal) (ix2 (edge t p) a) := by
  unfold iblk
  rw [View.read_apply]
  show V m c main_v13 _ = V m c main_v13 _
  congr 1
  funext b; apply Fin.ext
  match b with
  | ⟨0, _⟩ => show win0_1.index t (0 : Fin 2) * 2000 + 1 * p.val = t.val * 2000 + p.val; rw [(idx_rows t).2.1.1]; omega
  | ⟨1, _⟩ => show win0_1.index t (1 : Fin 2) * 3 + 1 * a.val = a.val; rw [(idx_rows t).2.1.2]; omega

/-- Row p of point t's block of window 2 is row t·2000 + p of the array it is cut from. -/
theorem blk2 (c : Dev nD) (t : Fin cfg0.N) (p : Fin 2000) (a : Fin 64) :
    (iblk m c 2 t : Vec Ideal S2000x64 .f32) (ix2 p a) = (V m c main_v20 : S1600000x64.Idx → EReal) (ix2 (edge t p) a) := by
  unfold iblk
  rw [View.read_apply]
  show V m c main_v20 _ = V m c main_v20 _
  congr 1
  funext b; apply Fin.ext
  match b with
  | ⟨0, _⟩ => show win0_2.index t (0 : Fin 2) * 2000 + 1 * p.val = t.val * 2000 + p.val; rw [(idx_rows t).2.2.1.1]; omega
  | ⟨1, _⟩ => show win0_2.index t (1 : Fin 2) * 64 + 1 * a.val = a.val; rw [(idx_rows t).2.2.1.2]; omega

/-- Row p of point t's block of window 3 is row t·2000 + p of the array it is cut from. -/
theorem blk3 (c : Dev nD) (t : Fin cfg0.N) (p : Fin 2000) (a : Fin 64) :
    (iblk m c 3 t : Vec Ideal S2000x64 .f32) (ix2 p a) = (V m c main_v27 : S1600000x64.Idx → EReal) (ix2 (edge t p) a) := by
  unfold iblk
  rw [View.read_apply]
  show V m c main_v27 _ = V m c main_v27 _
  congr 1
  funext b; apply Fin.ext
  match b with
  | ⟨0, _⟩ => show win0_3.index t (0 : Fin 2) * 2000 + 1 * p.val = t.val * 2000 + p.val; rw [(idx_rows t).2.2.2.1.1]; omega
  | ⟨1, _⟩ => show win0_3.index t (1 : Fin 2) * 64 + 1 * a.val = a.val; rw [(idx_rows t).2.2.2.1.2]; omega

/-- Window 4's block is its whole array at every point. -/
theorem blk4 (c : Dev nD) (t : Fin cfg0.N) (k : Fin 128) (j : Fin 64) :
    (iblk m c 4 t : Vec Ideal S128x64 .f32) (ix2 k j) = (V m c main_v29 : S128x64.Idx → EReal) (ix2 k j) := by
  unfold iblk
  rw [View.read_apply]
  show V m c main_v29 _ = V m c main_v29 _
  congr 1
  funext b; apply Fin.ext
  match b with
  | ⟨0, _⟩ => show win0_4.index t (0 : Fin 2) * 128 + 1 * k.val = k.val; rw [(idx_whole t).1.1]; omega
  | ⟨1, _⟩ => show win0_4.index t (1 : Fin 2) * 64 + 1 * j.val = j.val; rw [(idx_whole t).1.2]; omega

/-- Window 5's block is its whole array at every point. -/
theorem blk5 (c : Dev nD) (t : Fin cfg0.N) (k : Fin 1) (j : Fin 64) :
    (iblk m c 5 t : Vec Ideal S1x64 .f32) (ix2 k j) = (V m c main_v28 : S1x64.Idx → EReal) (ix2 k j) := by
  unfold iblk
  rw [View.read_apply]
  show V m c main_v28 _ = V m c main_v28 _
  congr 1
  funext b; apply Fin.ext
  match b with
  | ⟨0, _⟩ => show win0_5.index t (0 : Fin 2) * 1 + 1 * k.val = k.val; rw [(idx_whole t).2.1.1]; omega
  | ⟨1, _⟩ => show win0_5.index t (1 : Fin 2) * 64 + 1 * j.val = j.val; rw [(idx_whole t).2.1.2]; omega

/-- Window 6's block is its whole array at every point. -/
theorem blk6 (c : Dev nD) (t : Fin cfg0.N) (k : Fin 1) (j : Fin 64) :
    (iblk m c 6 t : Vec Ideal S1x64 .f32) (ix2 k j) = (V m c main_v30 : S1x64.Idx → EReal) (ix2 k j) := by
  unfold iblk
  rw [View.read_apply]
  show V m c main_v30 _ = V m c main_v30 _
  congr 1
  funext b; apply Fin.ext
  match b with
  | ⟨0, _⟩ => show win0_6.index t (0 : Fin 2) * 1 + 1 * k.val = k.val; rw [(idx_whole t).2.2.1.1]; omega
  | ⟨1, _⟩ => show win0_6.index t (1 : Fin 2) * 64 + 1 * j.val = j.val; rw [(idx_whole t).2.2.1.2]; omega

/-- Window 7's block is its whole array at every point. -/
theorem blk7 (c : Dev nD) (t : Fin cfg0.N) (k : Fin 64) (j : Fin 64) :
    (iblk m c 7 t : Vec Ideal S64x64 .f32) (ix2 k j) = (V m c main_arg6 : S64x64.Idx → EReal) (ix2 k j) := by
  unfold iblk
  rw [View.read_apply]
  show V m c main_arg6 _ = V m c main_arg6 _
  congr 1
  funext b; apply Fin.ext
  match b with
  | ⟨0, _⟩ => show win0_7.index t (0 : Fin 2) * 64 + 1 * k.val = k.val; rw [(idx_whole t).2.2.2.1.1]; omega
  | ⟨1, _⟩ => show win0_7.index t (1 : Fin 2) * 64 + 1 * j.val = j.val; rw [(idx_whole t).2.2.2.1.2]; omega

/-- Window 8's block is its whole array at every point. -/
theorem blk8 (c : Dev nD) (t : Fin cfg0.N) (k : Fin 1) (j : Fin 64) :
    (iblk m c 8 t : Vec Ideal S1x64 .f32) (ix2 k j) = (V m c main_v31 : S1x64.Idx → EReal) (ix2 k j) := by
  unfold iblk
  rw [View.read_apply]
  show V m c main_v31 _ = V m c main_v31 _
  congr 1
  funext b; apply Fin.ext
  match b with
  | ⟨0, _⟩ => show win0_8.index t (0 : Fin 2) * 1 + 1 * k.val = k.val; rw [(idx_whole t).2.2.2.2.1.1]; omega
  | ⟨1, _⟩ => show win0_8.index t (1 : Fin 2) * 64 + 1 * j.val = j.val; rw [(idx_whole t).2.2.2.2.1.2]; omega

/-- Window 9's block is its whole array at every point. -/
theorem blk9 (c : Dev nD) (t : Fin cfg0.N) (k : Fin 64) (j : Fin 64) :
    (iblk m c 9 t : Vec Ideal S64x64 .f32) (ix2 k j) = (V m c main_arg8 : S64x64.Idx → EReal) (ix2 k j) := by
  unfold iblk
  rw [View.read_apply]
  show V m c main_arg8 _ = V m c main_arg8 _
  congr 1
  funext b; apply Fin.ext
  match b with
  | ⟨0, _⟩ => show win0_9.index t (0 : Fin 2) * 64 + 1 * k.val = k.val; rw [(idx_whole t).2.2.2.2.2.1.1]; omega
  | ⟨1, _⟩ => show win0_9.index t (1 : Fin 2) * 64 + 1 * j.val = j.val; rw [(idx_whole t).2.2.2.2.2.1.2]; omega

/-- Window 10's block is its whole array at every point. -/
theorem blk10 (c : Dev nD) (t : Fin cfg0.N) (k : Fin 1) (j : Fin 64) :
    (iblk m c 10 t : Vec Ideal S1x64 .f32) (ix2 k j) = (V m c main_v32 : S1x64.Idx → EReal) (ix2 k j) := by
  unfold iblk
  rw [View.read_apply]
  show V m c main_v32 _ = V m c main_v32 _
  congr 1
  funext b; apply Fin.ext
  match b with
  | ⟨0, _⟩ => show win0_10.index t (0 : Fin 2) * 1 + 1 * k.val = k.val; rw [(idx_whole t).2.2.2.2.2.2.1.1]; omega
  | ⟨1, _⟩ => show win0_10.index t (1 : Fin 2) * 64 + 1 * j.val = j.val; rw [(idx_whole t).2.2.2.2.2.2.1.2]; omega

/-- Window 11's block is its whole array at every point. -/
theorem blk11 (c : Dev nD) (t : Fin cfg0.N) (k : Fin 64) (j : Fin 1) :
    (iblk m c 11 t : Vec Ideal S64x1 .f32) (ix2 k j) = (V m c main_arg10 : S64x1.Idx → EReal) (ix2 k j) := by
  unfold iblk
  rw [View.read_apply]
  show V m c main_arg10 _ = V m c main_arg10 _
  congr 1
  funext b; apply Fin.ext
  match b with
  | ⟨0, _⟩ => show win0_11.index t (0 : Fin 2) * 64 + 1 * k.val = k.val; rw [(idx_whole t).2.2.2.2.2.2.2.1]; omega
  | ⟨1, _⟩ => show win0_11.index t (1 : Fin 2) * 1 + 1 * j.val = j.val; rw [(idx_whole t).2.2.2.2.2.2.2.2]; omega

/-! ## The arrays the region is given, at their literal types -/

/-- The source endpoints' coordinates, one row per edge. -/
abbrev xsA (c : Dev nD) : Mat 1600000 3 := V m c main_v6
/-- The destination endpoints' coordinates. -/
abbrev xdA (c : Dev nD) : Mat 1600000 3 := V m c main_v13
/-- The source endpoints' features. -/
abbrev hsA (c : Dev nD) : Mat 1600000 64 := V m c main_v20
/-- The destination endpoints' features. -/
abbrev hdA (c : Dev nD) : Mat 1600000 64 := V m c main_v27
abbrev W1A (c : Dev nD) : Mat 129 64 := m ((c : Thread nD τ).loc main_arg4)
abbrev b1A (c : Dev nD) : Row 64 := m ((c : Thread nD τ).loc main_arg5)
abbrev W2A (c : Dev nD) : Mat 64 64 := m ((c : Thread nD τ).loc main_arg6)
abbrev b2A (c : Dev nD) : Row 64 := m ((c : Thread nD τ).loc main_arg7)
abbrev W3A (c : Dev nD) : Mat 64 64 := m ((c : Thread nD τ).loc main_arg8)
abbrev b3A (c : Dev nD) : Row 64 := m ((c : Thread nD τ).loc main_arg9)
abbrev W4A (c : Dev nD) : Mat 64 1 := m ((c : Thread nD τ).loc main_arg10)

/-! ## One row of a block against one row of the arrays

Stated over arbitrary blocks and arrays: where row p of the per-edge blocks is row e of the per-edge arrays and the
weight blocks are the weights (W₁ split into its first row and the rest, the biases laid out as rows), the body's
stored values at row p are the specification's at edge e. -/

section Rows

variable (xs xd : Mat 1600000 3) (hs hd : Mat 1600000 64) (W1 : Mat 129 64) (b1 : Row 64) (W2 : Mat 64 64) (b2 : Row 64)
  (W3 : Mat 64 64) (b3 : Row 64) (W4 : Mat 64 1)
  (x0 x1 : Vec Ideal S2000x3 .f32) (x2 x3 : Vec Ideal S2000x64 .f32) (x4 : Vec Ideal S128x64 .f32)
  (x5 x6 : Vec Ideal S1x64 .f32) (x7 : Vec Ideal S64x64 .f32) (x8 : Vec Ideal S1x64 .f32) (x9 : Vec Ideal S64x64 .f32)
  (x10 : Vec Ideal S1x64 .f32) (x11 : Vec Ideal S64x1 .f32) (e : Fin 1600000) (p : Fin 2000)

theorem radial_row (h0 : ∀ a, x0 (ix2 p a) = xs (ix2 e a)) (h1 : ∀ a, x1 (ix2 p a) = xd (ix2 e a)) (u : Fin 1) :
    k0_pay4 (F := Ideal) x0 x1 (ix2 p u) = radAt xs xd e := by
  have e0 : row x0 p = row xs e := funext h0
  have e1 : row x1 p = row xd e := funext h1
  rw [Block.radial_at, e0, e1]
  rfl

theorem feature_row (h0 : ∀ a, x0 (ix2 p a) = xs (ix2 e a)) (h1 : ∀ a, x1 (ix2 p a) = xd (ix2 e a))
    (h2 : ∀ a, x2 (ix2 p a) = hs (ix2 e a)) (h3 : ∀ a, x3 (ix2 p a) = hd (ix2 e a))
    (h4 : ∀ (k : Fin 128) (j : Fin 64), x4 (ix2 k j) = W1 (ix2 (⟨k.val + 1, by omega⟩ : Fin 129) j))
    (h5 : ∀ j : Fin 64, x5 (ix2 (0 : Fin 1) j) = W1 (ix2 (⟨0, by omega⟩ : Fin 129) j))
    (h6 : ∀ j : Fin 64, x6 (ix2 (0 : Fin 1) j) = b1 (ix1 j))
    (h7 : ∀ (k j : Fin 64), x7 (ix2 k j) = W2 (ix2 k j))
    (h8 : ∀ j : Fin 64, x8 (ix2 (0 : Fin 1) j) = b2 (ix1 j)) (j : Fin 64) :
    k0_pay1 (F := Ideal) (k0_pay5 x0 x1 x2 x3 x4 x5 x6 x7 x8) (ix2 p j) = featAt xs xd hs hd W1 b1 W2 b2 e j := by
  have e0 : row x0 p = row xs e := funext h0
  have e1 : row x1 p = row xd e := funext h1
  have e2 : row x2 p = row hs e := funext h2
  have e3 : row x3 p = row hd e := funext h3
  have e4 : (fun k => row x4 k) = fun k : Fin 128 => row W1 (⟨k.val + 1, by omega⟩ : Fin 129) := funext fun k => funext (h4 k)
  have e5 : row x5 0 = row W1 (⟨0, by omega⟩ : Fin 129) := funext h5
  have e6 : row x6 0 = fun j => b1 (ix1 j) := funext h6
  have e7 : (fun k => row x7 k) = fun k => row W2 k := funext fun k => funext (h7 k)
  have e8 : row x8 0 = fun j => b2 (ix1 j) := funext h8
  rw [Block.feature_at, e0, e1, e2, e3, e4, e5, e6, e7, e8]
  rfl

theorem shift_row (h0 : ∀ a, x0 (ix2 p a) = xs (ix2 e a)) (h1 : ∀ a, x1 (ix2 p a) = xd (ix2 e a))
    (h2 : ∀ a, x2 (ix2 p a) = hs (ix2 e a)) (h3 : ∀ a, x3 (ix2 p a) = hd (ix2 e a))
    (h4 : ∀ (k : Fin 128) (j : Fin 64), x4 (ix2 k j) = W1 (ix2 (⟨k.val + 1, by omega⟩ : Fin 129) j))
    (h5 : ∀ j : Fin 64, x5 (ix2 (0 : Fin 1) j) = W1 (ix2 (⟨0, by omega⟩ : Fin 129) j))
    (h6 : ∀ j : Fin 64, x6 (ix2 (0 : Fin 1) j) = b1 (ix1 j))
    (h7 : ∀ (k j : Fin 64), x7 (ix2 k j) = W2 (ix2 k j))
    (h8 : ∀ j : Fin 64, x8 (ix2 (0 : Fin 1) j) = b2 (ix1 j))
    (h9 : ∀ (k j : Fin 64), x9 (ix2 k j) = W3 (ix2 k j))
    (h10 : ∀ j : Fin 64, x10 (ix2 (0 : Fin 1) j) = b3 (ix1 j))
    (h11 : ∀ k : Fin 64, x11 (ix2 k (0 : Fin 1)) = W4 (ix2 k (0 : Fin 1))) (a : Fin 3) :
    k0_pay2 (F := Ideal) (k0_pay3 x0 x1) (k0_pay4 x0 x1) (k0_pay5 x0 x1 x2 x3 x4 x5 x6 x7 x8) x9 x10 x11 (ix2 p a)
      = moveAt xs xd hs hd W1 b1 W2 b2 W3 b3 W4 e a := by
  have e0 : row x0 p = row xs e := funext h0
  have e1 : row x1 p = row xd e := funext h1
  have e2 : row x2 p = row hs e := funext h2
  have e3 : row x3 p = row hd e := funext h3
  have e4 : (fun k => row x4 k) = fun k : Fin 128 => row W1 (⟨k.val + 1, by omega⟩ : Fin 129) := funext fun k => funext (h4 k)
  have e5 : row x5 0 = row W1 (⟨0, by omega⟩ : Fin 129) := funext h5
  have e6 : row x6 0 = fun j => b1 (ix1 j) := funext h6
  have e7 : (fun k => row x7 k) = fun k => row W2 k := funext fun k => funext (h7 k)
  have e8 : row x8 0 = fun j => b2 (ix1 j) := funext h8
  have e9 : (fun k => row x9 k) = fun k => row W3 k := funext fun k => funext (h9 k)
  have e10 : row x10 0 = fun j => b3 (ix1 j) := funext h10
  have e11 : (fun k => x11 (ix2 k (0 : Fin 1))) = fun k => W4 (ix2 k (0 : Fin 1)) := funext h11
  rw [Block.shift_at, e0, e1, e2, e3, e4, e5, e6, e7, e8, e9, e10, e11]
  rfl

end Rows

/-! ## What each point writes back is its block of the specification -/

theorem flushed12_eq (c : Dev nD) (t : Fin cfg0.N) :
    (dats m 0 c).flushed 12 t = ((cfg0.win 12).blk t).view.read (Elt Ideal) (radial (xsA m c) (xdA m c)) := by
  rw [Value.flushed12]
  unfold out0_12
  rw [View.canon_unit_zero hz]
  simp only [View.ld_unit_zero (S := S2000x3) hz]
  funext y
  have hy0 : (y 0).val < 2000 := (y 0).isLt
  have hy1 : (y 1).val < 1 := (y 1).isLt
  show k0_pay4 (F := Ideal) (iblk m c 0 t) (iblk m c 1 t) ((cfg0.win 12).xinj (grid0.coords t) y)
      = radial (xsA m c) (xdA m c) (((cfg0.win 12).blk t).view.emb y)
  have eY : (cfg0.win 12).xinj (grid0.coords t) y = ix2 (⟨(y 0).val, hy0⟩ : Fin 2000) (⟨(y 1).val, hy1⟩ : Fin 1) :=
    funext fun a => Fin.ext (by match a with | ⟨0, _⟩ => rfl | ⟨1, _⟩ => rfl)
  have eI : ((cfg0.win 12).blk t).view.emb y = ix2 (edge t ⟨(y 0).val, hy0⟩) (⟨(y 1).val, hy1⟩ : Fin 1) :=
    funext fun a => Fin.ext (by
      match a with
      | ⟨0, _⟩ => show win0_12.index t (0 : Fin 2) * 2000 + 1 * (y 0).val = t.val * 2000 + (y 0).val; rw [(idx_rows t).2.2.2.2.1.1]; omega
      | ⟨1, _⟩ => show win0_12.index t (1 : Fin 2) * 1 + 1 * (y 1).val = (y 1).val; rw [(idx_rows t).2.2.2.2.1.2]; omega)
  rw [eY, eI, radial_ix2]
  exact radial_row (xsA m c) (xdA m c) (iblk m c 0 t) (iblk m c 1 t) _ _ (fun a => blk0 m c t _ a) (fun a => blk1 m c t _ a) _

theorem flushed14_eq (c : Dev nD) (t : Fin cfg0.N) :
    (dats m 0 c).flushed 14 t
      = ((cfg0.win 14).blk t).view.read (Elt Ideal) (feature (xsA m c) (xdA m c) (hsA m c) (hdA m c) (W1A m c) (b1A m c) (W2A m c) (b2A m c)) := by
  rw [Value.flushed14]
  unfold out0_14
  rw [View.canon_unit_zero hz]
  simp only [View.ld_unit_zero (S := S2000x3) hz, View.ld_unit_zero (S := S2000x64) hz, View.ld_unit_zero (S := S128x64) hz,
    View.ld_unit_zero (S := S1x64) hz, View.ld_unit_zero (S := S64x64) hz]
  funext y
  have hy0 : (y 0).val < 2000 := (y 0).isLt
  have hy1 : (y 1).val < 64 := (y 1).isLt
  show k0_pay1 (F := Ideal) (k0_pay5 (iblk m c 0 t) (iblk m c 1 t) (iblk m c 2 t) (iblk m c 3 t) (iblk m c 4 t) (iblk m c 5 t) (iblk m c 6 t) (iblk m c 7 t) (iblk m c 8 t)) ((cfg0.win 14).xinj (grid0.coords t) y)
      = feature (xsA m c) (xdA m c) (hsA m c) (hdA m c) (W1A m c) (b1A m c) (W2A m c) (b2A m c) (((cfg0.win 14).blk t).view.emb y)
  have eY : (cfg0.win 14).xinj (grid0.coords t) y = ix2 (⟨(y 0).val, hy0⟩ : Fin 2000) (⟨(y 1).val, hy1⟩ : Fin 64) :=
    funext fun a => Fin.ext (by match a with | ⟨0, _⟩ => rfl | ⟨1, _⟩ => rfl)
  have eI : ((cfg0.win 14).blk t).view.emb y = ix2 (edge t ⟨(y 0).val, hy0⟩) (⟨(y 1).val, hy1⟩ : Fin 64) :=
    funext fun a => Fin.ext (by
      match a with
      | ⟨0, _⟩ => show win0_14.index t (0 : Fin 2) * 2000 + 1 * (y 0).val = t.val * 2000 + (y 0).val; rw [(idx_rows t).2.2.2.2.2.2.1]; omega
      | ⟨1, _⟩ => show win0_14.index t (1 : Fin 2) * 64 + 1 * (y 1).val = (y 1).val; rw [(idx_rows t).2.2.2.2.2.2.2]; omega)
  rw [eY, eI, feature_ix2]
  exact feature_row (xsA m c) (xdA m c) (hsA m c) (hdA m c) (W1A m c) (b1A m c) (W2A m c) (b2A m c)
    (iblk m c 0 t) (iblk m c 1 t) (iblk m c 2 t) (iblk m c 3 t) (iblk m c 4 t) (iblk m c 5 t) (iblk m c 6 t) (iblk m c 7 t) (iblk m c 8 t) _ _
    (fun a => blk0 m c t _ a) (fun a => blk1 m c t _ a) (fun a => blk2 m c t _ a) (fun a => blk3 m c t _ a)
    (fun k j => (blk4 m c t k j).trans ((congrFun (Host.w1Tail m c) _).trans (Host.tail_at _ k j)))
    (fun j => (blk5 m c t 0 j).trans ((congrFun (Host.w1Head m c) _).trans (Host.head_at _ j)))
    (fun j => (blk6 m c t 0 j).trans ((congrFun (Host.b1Row m c) _).trans (Host.biasRow_at _ j)))
    (fun k j => (blk7 m c t k j).trans (congrFun (V_main_arg6 m c) _))
    (fun j => (blk8 m c t 0 j).trans ((congrFun (Host.b2Row m c) _).trans (Host.biasRow_at _ j))) _

theorem flushed13_eq (c : Dev nD) (t : Fin cfg0.N) :
    (dats m 0 c).flushed 13 t
      = ((cfg0.win 13).blk t).view.read (Elt Ideal) (shift (xsA m c) (xdA m c) (hsA m c) (hdA m c) (W1A m c) (b1A m c) (W2A m c) (b2A m c) (W3A m c) (b3A m c) (W4A m c)) := by
  rw [Value.flushed13]
  unfold out0_13
  rw [View.canon_unit_zero hz]
  simp only [View.ld_unit_zero (S := S2000x3) hz, View.ld_unit_zero (S := S2000x64) hz, View.ld_unit_zero (S := S128x64) hz,
    View.ld_unit_zero (S := S1x64) hz, View.ld_unit_zero (S := S64x64) hz, View.ld_unit_zero (S := S64x1) hz]
  funext y
  have hy0 : (y 0).val < 2000 := (y 0).isLt
  have hy1 : (y 1).val < 3 := (y 1).isLt
  show k0_pay2 (F := Ideal) (k0_pay3 (iblk m c 0 t) (iblk m c 1 t)) (k0_pay4 (iblk m c 0 t) (iblk m c 1 t)) (k0_pay5 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t)
        ((cfg0.win 13).xinj (grid0.coords t) y)
      = shift (xsA m c) (xdA m c) (hsA m c) (hdA m c) (W1A m c) (b1A m c) (W2A m c) (b2A m c) (W3A m c) (b3A m c) (W4A m c) (((cfg0.win 13).blk t).view.emb y)
  have eY : (cfg0.win 13).xinj (grid0.coords t) y = ix2 (⟨(y 0).val, hy0⟩ : Fin 2000) (⟨(y 1).val, hy1⟩ : Fin 3) :=
    funext fun a => Fin.ext (by match a with | ⟨0, _⟩ => rfl | ⟨1, _⟩ => rfl)
  have eI : ((cfg0.win 13).blk t).view.emb y = ix2 (edge t ⟨(y 0).val, hy0⟩) (⟨(y 1).val, hy1⟩ : Fin 3) :=
    funext fun a => Fin.ext (by
      match a with
      | ⟨0, _⟩ => show win0_13.index t (0 : Fin 2) * 2000 + 1 * (y 0).val = t.val * 2000 + (y 0).val; rw [(idx_rows t).2.2.2.2.2.1.1]; omega
      | ⟨1, _⟩ => show win0_13.index t (1 : Fin 2) * 3 + 1 * (y 1).val = (y 1).val; rw [(idx_rows t).2.2.2.2.2.1.2]; omega)
  rw [eY, eI, shift_ix2]
  exact shift_row (xsA m c) (xdA m c) (hsA m c) (hdA m c) (W1A m c) (b1A m c) (W2A m c) (b2A m c) (W3A m c) (b3A m c) (W4A m c)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _
    (fun a => blk0 m c t _ a) (fun a => blk1 m c t _ a) (fun a => blk2 m c t _ a) (fun a => blk3 m c t _ a)
    (fun k j => (blk4 m c t k j).trans ((congrFun (Host.w1Tail m c) _).trans (Host.tail_at _ k j)))
    (fun j => (blk5 m c t 0 j).trans ((congrFun (Host.w1Head m c) _).trans (Host.head_at _ j)))
    (fun j => (blk6 m c t 0 j).trans ((congrFun (Host.b1Row m c) _).trans (Host.biasRow_at _ j)))
    (fun k j => (blk7 m c t k j).trans (congrFun (V_main_arg6 m c) _))
    (fun j => (blk8 m c t 0 j).trans ((congrFun (Host.b2Row m c) _).trans (Host.biasRow_at _ j)))
    (fun k j => (blk9 m c t k j).trans (congrFun (V_main_arg8 m c) _))
    (fun j => (blk10 m c t 0 j).trans ((congrFun (Host.b3Row m c) _).trans (Host.biasRow_at _ j)))
    (fun k => (blk11 m c t k 0).trans (congrFun (V_main_arg10 m c) _)) _

/-! ## The 800 blocks of 2000 rows cover every row -/

theorem cover12 (i : S1600000x1.Idx) : ∃ t : Fin cfg0.N, (cfg0.win 12).flush t = true ∧ i ∈ ((cfg0.win 12).blk t).view.set := by
  have hi0 : (i 0).val < 1600000 := (i 0).isLt
  have hi1 : (i 1).val < 1 := (i 1).isLt
  have hN : cfg0.N = 800 := N_0
  have ht : (i 0).val / 2000 < cfg0.N := by rw [hN]; omega
  refine ⟨⟨(i 0).val / 2000, ht⟩, flush0_12 _, ?_⟩
  show i ∈ ((View.whole main_v33_0).slice (win0_12.rect ⟨(i 0).val / 2000, ht⟩)).set
  rw [View.set_slice_whole, Rect.mem_set_unit]
  intro a
  match a with
  | ⟨0, _⟩ =>
    show win0_12.index ⟨(i 0).val / 2000, ht⟩ (0 : Fin 2) * 2000 ≤ (i 0).val
      ∧ (i 0).val < win0_12.index ⟨(i 0).val / 2000, ht⟩ (0 : Fin 2) * 2000 + 2000
    rw [(idx_rows ⟨(i 0).val / 2000, ht⟩).2.2.2.2.1.1]
    show (i 0).val / 2000 * 2000 ≤ (i 0).val ∧ (i 0).val < (i 0).val / 2000 * 2000 + 2000
    omega
  | ⟨1, _⟩ =>
    show win0_12.index ⟨(i 0).val / 2000, ht⟩ (1 : Fin 2) * 1 ≤ (i 1).val
      ∧ (i 1).val < win0_12.index ⟨(i 0).val / 2000, ht⟩ (1 : Fin 2) * 1 + 1
    rw [(idx_rows ⟨(i 0).val / 2000, ht⟩).2.2.2.2.1.2]
    omega

theorem cover13 (i : S1600000x3.Idx) : ∃ t : Fin cfg0.N, (cfg0.win 13).flush t = true ∧ i ∈ ((cfg0.win 13).blk t).view.set := by
  have hi0 : (i 0).val < 1600000 := (i 0).isLt
  have hi1 : (i 1).val < 3 := (i 1).isLt
  have hN : cfg0.N = 800 := N_0
  have ht : (i 0).val / 2000 < cfg0.N := by rw [hN]; omega
  refine ⟨⟨(i 0).val / 2000, ht⟩, flush0_13 _, ?_⟩
  show i ∈ ((View.whole main_v33_1).slice (win0_13.rect ⟨(i 0).val / 2000, ht⟩)).set
  rw [View.set_slice_whole, Rect.mem_set_unit]
  intro a
  match a with
  | ⟨0, _⟩ =>
    show win0_13.index ⟨(i 0).val / 2000, ht⟩ (0 : Fin 2) * 2000 ≤ (i 0).val
      ∧ (i 0).val < win0_13.index ⟨(i 0).val / 2000, ht⟩ (0 : Fin 2) * 2000 + 2000
    rw [(idx_rows ⟨(i 0).val / 2000, ht⟩).2.2.2.2.2.1.1]
    show (i 0).val / 2000 * 2000 ≤ (i 0).val ∧ (i 0).val < (i 0).val / 2000 * 2000 + 2000
    omega
  | ⟨1, _⟩ =>
    show win0_13.index ⟨(i 0).val / 2000, ht⟩ (1 : Fin 2) * 3 ≤ (i 1).val
      ∧ (i 1).val < win0_13.index ⟨(i 0).val / 2000, ht⟩ (1 : Fin 2) * 3 + 3
    rw [(idx_rows ⟨(i 0).val / 2000, ht⟩).2.2.2.2.2.1.2]
    omega

theorem cover14 (i : S1600000x64.Idx) : ∃ t : Fin cfg0.N, (cfg0.win 14).flush t = true ∧ i ∈ ((cfg0.win 14).blk t).view.set := by
  have hi0 : (i 0).val < 1600000 := (i 0).isLt
  have hi1 : (i 1).val < 64 := (i 1).isLt
  have hN : cfg0.N = 800 := N_0
  have ht : (i 0).val / 2000 < cfg0.N := by rw [hN]; omega
  refine ⟨⟨(i 0).val / 2000, ht⟩, flush0_14 _, ?_⟩
  show i ∈ ((View.whole main_v33_2).slice (win0_14.rect ⟨(i 0).val / 2000, ht⟩)).set
  rw [View.set_slice_whole, Rect.mem_set_unit]
  intro a
  match a with
  | ⟨0, _⟩ =>
    show win0_14.index ⟨(i 0).val / 2000, ht⟩ (0 : Fin 2) * 2000 ≤ (i 0).val
      ∧ (i 0).val < win0_14.index ⟨(i 0).val / 2000, ht⟩ (0 : Fin 2) * 2000 + 2000
    rw [(idx_rows ⟨(i 0).val / 2000, ht⟩).2.2.2.2.2.2.1]
    show (i 0).val / 2000 * 2000 ≤ (i 0).val ∧ (i 0).val < (i 0).val / 2000 * 2000 + 2000
    omega
  | ⟨1, _⟩ =>
    show win0_14.index ⟨(i 0).val / 2000, ht⟩ (1 : Fin 2) * 64 ≤ (i 1).val
      ∧ (i 1).val < win0_14.index ⟨(i 0).val / 2000, ht⟩ (1 : Fin 2) * 64 + 64
    rw [(idx_rows ⟨(i 0).val / 2000, ht⟩).2.2.2.2.2.2.2]
    omega

/-! ## The result arrays after the launch, and the run -/

theorem final12 (c : Dev nD) : (dats m 0 c).arrAt 12 cfg0.N = radial (xsA m c) (xdA m c) :=
  (dats m 0 c).arrAt_eq_of_cover 12 (radial (xsA m c) (xdA m c)) (fun t _ => flushed12_eq m c t) cover12

theorem final13 (c : Dev nD) : (dats m 0 c).arrAt 13 cfg0.N = shift (xsA m c) (xdA m c) (hsA m c) (hdA m c) (W1A m c) (b1A m c) (W2A m c) (b2A m c) (W3A m c) (b3A m c) (W4A m c) :=
  (dats m 0 c).arrAt_eq_of_cover 13 (shift (xsA m c) (xdA m c) (hsA m c) (hdA m c) (W1A m c) (b1A m c) (W2A m c) (b2A m c) (W3A m c) (b3A m c) (W4A m c)) (fun t _ => flushed13_eq m c t) cover13

theorem final14 (c : Dev nD) : (dats m 0 c).arrAt 14 cfg0.N = feature (xsA m c) (xdA m c) (hsA m c) (hdA m c) (W1A m c) (b1A m c) (W2A m c) (b2A m c) :=
  (dats m 0 c).arrAt_eq_of_cover 14 (feature (xsA m c) (xdA m c) (hsA m c) (hdA m c) (W1A m c) (b1A m c) (W2A m c) (b2A m c)) (fun t _ => flushed14_eq m c t) cover14

/-- The kernel program's run: the three results at the specification of the gathered arrays and the weights, the
    arguments unchanged. -/
theorem run : θ_run defs (onTc (τ := τ) (main (F := Ideal))) ⟨m, fun _ => 0, ρ⟩ fun r => ∀ c : Dev nD,
      r.2.mem ((c : Thread nD τ).loc main_v33_0) = radial (xsA m c) (xdA m c)
      ∧ r.2.mem ((c : Thread nD τ).loc main_v33_1) = shift (xsA m c) (xdA m c) (hsA m c) (hdA m c) (W1A m c) (b1A m c) (W2A m c) (b2A m c) (W3A m c) (b3A m c) (W4A m c)
      ∧ r.2.mem ((c : Thread nD τ).loc main_v33_2) = feature (xsA m c) (xdA m c) (hsA m c) (hdA m c) (W1A m c) (b1A m c) (W2A m c) (b2A m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
      ⟨(h c).1.trans (final12 m c), (h c).2.1.trans (final13 m c), (h c).2.2.1.trans (final14 m c), (h c).2.2.2⟩)
    (Value.run_blocks m ρ)

end Cert.Edge.Final

end
-- ==== Proof.RefIs.lean ====
/-
  The reference program, stage by stage, is the per-edge specification.

  The reference gathers the endpoints' rows once and then works on whole E-row arrays: the squared distance is a row
  sum, each linear layer one matrix product plus a bias spread over the rows, silu is spelt x · (1 / (1 + e^(−x))).
  Read at row e these are `Cert.Edge`'s per-edge functions of row e of the four gathered arrays. The one
  rearrangement: the first layer multiplies the 129-column array (rad | a | b) by W₁; taking the first term out of
  that sum leaves rad · W₁[0, j] plus the 128-term sum over (a ‖ b) against W₁'s other rows.
-/
import proofs.«106035_j15135464751165_1_alg».proof.Proof.Gen.ReferenceIdeal.Read
import proofs.«106035_j15135464751165_1_alg».proof.Proof.EdgeSpec
import Idealize.ShloMosaic.Lib.Pipeline.Value
import Idealize.ShloMosaic.Lib.ValueIdx
import Idealize.ShloMosaic.PureOps.Ideal.Laws

noncomputable section

open scoped BigOperators

namespace Cert.Edge.Ref

open Idealize.ShloMosaic Idealize.ShloMosaic.ValueIdx Cert.ReferenceIdeal Cert.ReferenceIdeal.Read Cert.Edge

/-! ## The generated index maps at an index given by its coordinates

Every layout operation and contraction reads its operand at an index computed from the result's index; at
`ix2 e j` these are again indices given by their coordinates. -/

theorem idx17 (e : Fin 1600000) (u : Fin 1) : idx_main_v17 (ix2 e u) = ix1 e :=
  funext fun a => Fin.ext (by match a with | ⟨0, _⟩ => rfl)
theorem idx16 (e : Fin 1600000) (k : Fin 3) : idx_main_v16 (ix1 e) k = ix2 e k :=
  funext fun a => Fin.ext (by match a with | ⟨0, _⟩ => rfl | ⟨1, _⟩ => rfl)
theorem lidx33 (e : Fin 1600000) (j : Fin 64) (k : Fin 129) : lidx_main_v33 (ix2 e j) k = ix2 e k :=
  funext fun a => Fin.ext (by match a with | ⟨0, _⟩ => rfl | ⟨1, _⟩ => rfl)
theorem ridx33 (e : Fin 1600000) (j : Fin 64) (k : Fin 129) : ridx_main_v33 (ix2 e j) k = ix2 k j :=
  funext fun a => Fin.ext (by match a with | ⟨0, _⟩ => rfl | ⟨1, _⟩ => rfl)
theorem idx35 (e : Fin 1600000) (j : Fin 64) : idx_main_v35 (ix2 e j) = ix2 (0 : Fin 1) j :=
  funext fun a => Fin.ext (by match a with | ⟨0, _⟩ => rfl | ⟨1, _⟩ => rfl)
theorem idx34 (j : Fin 64) : idx_main_v34 (ix2 (0 : Fin 1) j) = ix1 j :=
  funext fun a => Fin.ext (by match a with | ⟨0, _⟩ => rfl)
theorem lidx38 (e : Fin 1600000) (j k : Fin 64) : lidx_main_v38 (ix2 e j) k = ix2 e k :=
  funext fun a => Fin.ext (by match a with | ⟨0, _⟩ => rfl | ⟨1, _⟩ => rfl)
theorem ridx38 (e : Fin 1600000) (j k : Fin 64) : ridx_main_v38 (ix2 e j) k = ix2 k j :=
  funext fun a => Fin.ext (by match a with | ⟨0, _⟩ => rfl | ⟨1, _⟩ => rfl)
theorem idx40 (e : Fin 1600000) (j : Fin 64) : idx_main_v40 (ix2 e j) = ix2 (0 : Fin 1) j :=
  funext fun a => Fin.ext (by match a with | ⟨0, _⟩ => rfl | ⟨1, _⟩ => rfl)
theorem idx39 (j : Fin 64) : idx_main_v39 (ix2 (0 : Fin 1) j) = ix1 j :=
  funext fun a => Fin.ext (by match a with | ⟨0, _⟩ => rfl)
theorem lidx48 (e : Fin 1600000) (j k : Fin 64) : lidx_main_v48 (ix2 e j) k = ix2 e k :=
  funext fun a => Fin.ext (by match a with | ⟨0, _⟩ => rfl | ⟨1, _⟩ => rfl)
theorem ridx48 (e : Fin 1600000) (j k : Fin 64) : ridx_main_v48 (ix2 e j) k = ix2 k j :=
  funext fun a => Fin.ext (by match a with | ⟨0, _⟩ => rfl | ⟨1, _⟩ => rfl)
theorem idx50 (e : Fin 1600000) (j : Fin 64) : idx_main_v50 (ix2 e j) = ix2 (0 : Fin 1) j :=
  funext fun a => Fin.ext (by match a with | ⟨0, _⟩ => rfl | ⟨1, _⟩ => rfl)
theorem idx49 (j : Fin 64) : idx_main_v49 (ix2 (0 : Fin 1) j) = ix1 j :=
  funext fun a => Fin.ext (by match a with | ⟨0, _⟩ => rfl)
theorem lidx53 (e : Fin 1600000) (u : Fin 1) (k : Fin 64) : lidx_main_v53 (ix2 e u) k = ix2 e k :=
  funext fun a => Fin.ext (by match a with | ⟨0, _⟩ => rfl | ⟨1, _⟩ => rfl)
theorem ridx53 (e : Fin 1600000) (u : Fin 1) (k : Fin 64) : ridx_main_v53 (ix2 e u) k = ix2 k u :=
  funext fun a => Fin.ext (by match a with | ⟨0, _⟩ => rfl | ⟨1, _⟩ => rfl)
theorem idx46 (e : Fin 1600000) (c : Fin 3) : idx_main_v46 (ix2 e c) = ix2 e (0 : Fin 1) :=
  funext fun a => Fin.ext (by match a with | ⟨0, _⟩ => rfl | ⟨1, _⟩ => rfl)
theorem idx55 (e : Fin 1600000) (c : Fin 3) : idx_main_v55 (ix2 e c) = ix2 e (0 : Fin 1) :=
  funext fun a => Fin.ext (by match a with | ⟨0, _⟩ => rfl | ⟨1, _⟩ => rfl)

/-! ## The squared distance -/

/-- The single-precision word 0x3F800000 is the number 1. -/
theorem one_f32 : Ideal.ofBits .f32 0x3F800000#32 = 1 := by
  simp [Ideal.ofBits, Ideal.ieee, -EReal.coe_mul]; norm_num

/-- Row e of the first result: the row sum starts from the zero word, which is 0, so it is the three-term sum of the
    squared coordinate differences. -/
theorem rad_at (x0 : (⟨S50000x3, .f32⟩ : BufTy).Contents (Elt Ideal)) (x2 x3 : (⟨S1600000, .i32⟩ : BufTy).Contents (Elt Ideal))
    (e : Fin 1600000) (u : Fin 1) :
    val_main_v17 (F := Ideal) x0 x2 x3 (ix2 e u)
      = radAt (val_main_v6 (F := Ideal) x0 x2) (val_main_v13 (F := Ideal) x0 x3) e := by
  rw [val_main_v17_apply, idx17, val_main_v16_apply, val_main_cst_apply, Ideal.ofBits_def, Ideal.ofBits_zero_f32, zero_add]
  unfold radAt sq
  refine Finset.sum_congr rfl fun k _ => ?_
  rw [idx16]
  rfl

/-! ## The 129-column array (rad | a | b)

Three pieces of widths 1, 64 and 64 set side by side: column 0 lies in the first piece, column 1 + k in the second
for k < 64 (at its column k) and in the third for 64 ≤ k < 128 (at its column k − 64). -/

/-- The three-piece concatenation along the columns, read at a column: column 0 is the one-column piece. -/
theorem cat3_at0 (y0 : (⟨S1600000x1, .f32⟩ : BufTy).Contents (Elt Ideal)) (y1 y2 : (⟨S1600000x64, .f32⟩ : BufTy).Contents (Elt Ideal))
    (e : Fin 1600000) :
    concatenate S1600000x129 1 [⟨S1600000x1, y0⟩, ⟨S1600000x64, y1⟩, ⟨S1600000x64, y2⟩]
        Gen.concatenates_S1600000x1_S1600000x64_S1600000x64_S1600000x129_d1 (ix2 e (0 : Fin 129))
      = y0 (ix2 e (0 : Fin 1)) :=
  concatenate_apply_piece (1 : Fin S1600000x129.rank) _ _ (ix2 e (0 : Fin 129)) 0 (by show (0 : ℕ) < 3; omega) S1600000x1 y0 rfl rfl 0 rfl
    (ix2 e (0 : Fin 1)) (fun b hb => match b with | ⟨0, _⟩ => rfl | ⟨1, _⟩ => absurd rfl hb) rfl

/-- Column 1 + k, k < 64, is column k of the second piece. -/
theorem cat3_at1 (y0 : (⟨S1600000x1, .f32⟩ : BufTy).Contents (Elt Ideal)) (y1 y2 : (⟨S1600000x64, .f32⟩ : BufTy).Contents (Elt Ideal))
    (e : Fin 1600000) (k : Fin 128) (h : k.val < 64) :
    concatenate S1600000x129 1 [⟨S1600000x1, y0⟩, ⟨S1600000x64, y1⟩, ⟨S1600000x64, y2⟩]
        Gen.concatenates_S1600000x1_S1600000x64_S1600000x64_S1600000x129_d1 (ix2 e k.succ)
      = y1 (ix2 e (⟨k.val, h⟩ : Fin 64)) :=
  concatenate_apply_piece (1 : Fin S1600000x129.rank) _ _ (ix2 e k.succ) 1 (by show (1 : ℕ) < 3; omega) S1600000x64 y1 rfl rfl 1 rfl
    (ix2 e (⟨k.val, h⟩ : Fin 64)) (fun b hb => match b with | ⟨0, _⟩ => rfl | ⟨1, _⟩ => absurd rfl hb) (Nat.add_comm 1 k.val)

/-- Column 1 + k, 64 ≤ k < 128, is column k − 64 of the third piece. -/
theorem cat3_at2 (y0 : (⟨S1600000x1, .f32⟩ : BufTy).Contents (Elt Ideal)) (y1 y2 : (⟨S1600000x64, .f32⟩ : BufTy).Contents (Elt Ideal))
    (e : Fin 1600000) (k : Fin 128) (h : ¬ k.val < 64) :
    concatenate S1600000x129 1 [⟨S1600000x1, y0⟩, ⟨S1600000x64, y1⟩, ⟨S1600000x64, y2⟩]
        Gen.concatenates_S1600000x1_S1600000x64_S1600000x64_S1600000x129_d1 (ix2 e k.succ)
      = y2 (ix2 e (⟨k.val - 64, by have := k.isLt; omega⟩ : Fin 64)) :=
  concatenate_apply_piece (1 : Fin S1600000x129.rank) _ _ (ix2 e k.succ) 2 (by show (2 : ℕ) < 3; omega) S1600000x64 y2 rfl rfl 65 rfl
    (ix2 e (⟨k.val - 64, by have := k.isLt; omega⟩ : Fin 64)) (fun b hb => match b with | ⟨0, _⟩ => rfl | ⟨1, _⟩ => absurd rfl hb)
    (show 65 + (k.val - 64) = k.val + 1 by omega)

/-- Column 1 + k of the 129-column array (rad | a | b) is entry k of a ‖ b. -/
theorem cat_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (e : Fin 1600000) (k : Fin 128) :
    val_main_v32 (F := Ideal) x0 x1 x2 x3 (ix2 e k.succ)
      = cat (row (val_main_v24 (F := Ideal) x1 x2) e) (row (val_main_v31 (F := Ideal) x1 x3) e) k := by
  unfold val_main_v32 cat
  split
  · next h => exact cat3_at1 _ _ _ e k h
  · next h => exact cat3_at2 _ _ _ e k h

/-- Column 0 of the 129-column array is the squared distance. -/
theorem cat_at_zero (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (e : Fin 1600000) :
    val_main_v32 (F := Ideal) x0 x1 x2 x3 (ix2 e (0 : Fin 129))
      = radAt (val_main_v6 (F := Ideal) x0 x2) (val_main_v13 (F := Ideal) x0 x3) e := by
  unfold val_main_v32
  exact (cat3_at0 _ _ _ e).trans (rad_at x0 x2 x3 e 0)

/-- The first layer at (e, j): the 129-term sum with its first term taken out, plus the bias. -/
theorem pre1_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (e : Fin 1600000) (j : Fin 64) :
    val_main_v36 (F := Ideal) x0 x1 x2 x3 x4 x5 (ix2 e j)
      = pre1 (radAt (val_main_v6 (F := Ideal) x0 x2) (val_main_v13 (F := Ideal) x0 x3) e)
          (cat (row (val_main_v24 (F := Ideal) x1 x2) e) (row (val_main_v31 (F := Ideal) x1 x3) e))
          (row x4 ⟨0, by omega⟩) (fun k => row x4 ⟨k.val + 1, by omega⟩) (fun j => x5 (ix1 j)) j := by
  rw [val_main_v36_apply, val_main_v33_apply, val_main_v35_apply, idx35, val_main_v34_apply, idx34, Fin.sum_univ_succ]
  unfold pre1
  refine congrArg (· + x5 (ix1 j)) ?_
  refine congrArg₂ (· + ·) ?_ (Finset.sum_congr rfl fun k _ => ?_)
  · rw [lidx33, ridx33, cat_at_zero]; rfl
  · rw [lidx33, ridx33, cat_at]; rfl

/-! ## silu, spelt in host operations -/

/-- The broadcast constant 0x3F800000 is 1 at every index. -/
theorem bcast_one (i : S1600000x64.Idx) : val_main_call0_v2 (F := Ideal) i = 1 :=
  (val_main_call0_v2_apply i).trans ((val_main_call0_cst_apply _).trans one_f32)

/-- silu in host operations: y · (1 / (1 + e^(−y))) at an index is silu of the element, the logistic function being
    by definition that quotient. -/
theorem silu_arr (y one1 one2 : (⟨S1600000x64, .f32⟩ : BufTy).Contents (Elt Ideal)) (h1 : ∀ i, one1 i = 1)
    (h2 : ∀ i, one2 i = 1) (i : S1600000x64.Idx) :
    mulf (F := Ideal) (s := S1600000x64) (φ := .f32) y (Host.divf (F := Ideal) (s := S1600000x64) (φ := .f32) one2
        (addf (F := Ideal) (s := S1600000x64) (φ := .f32) one1 (Host.exp (F := Ideal) (s := S1600000x64) (φ := .f32)
          (Host.negf (F := Ideal) (s := S1600000x64) (φ := .f32) y)))) i = silu (y i) := by
  show y i * Ideal.div (one2 i) (one1 i + Ideal.exp (-(y i))) = y i * Ideal.div 1 (1 + Ideal.exp (-(y i)))
  rw [h1, h2]

/-- The three silu stages are that expression over the first, second and third layers' results. -/
theorem silu1_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (i : S1600000x64.Idx) :
    val_main_v37 (F := Ideal) x0 x1 x2 x3 x4 x5 i = silu (val_main_v36 (F := Ideal) x0 x1 x2 x3 x4 x5 i) :=
  silu_arr (val_main_v36 (F := Ideal) x0 x1 x2 x3 x4 x5) val_main_call0_v2 val_main_call0_v4 bcast_one bcast_one i

theorem silu2_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (i : S1600000x64.Idx) :
    val_main_v42 (F := Ideal) x0 x1 x2 x3 x4 x5 x6 x7 i = silu (val_main_v41 (F := Ideal) x0 x1 x2 x3 x4 x5 x6 x7 i) :=
  silu_arr (val_main_v41 (F := Ideal) x0 x1 x2 x3 x4 x5 x6 x7) val_main_call1_v2 val_main_call1_v4 bcast_one bcast_one i

theorem silu3_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (i : S1600000x64.Idx) :
    val_main_v52 (F := Ideal) x0 x1 x2 x3 x4 x5 x6 x7 x8 x9 i
      = silu (val_main_v51 (F := Ideal) x0 x1 x2 x3 x4 x5 x6 x7 x8 x9 i) :=
  silu_arr (val_main_v51 (F := Ideal) x0 x1 x2 x3 x4 x5 x6 x7 x8 x9) val_main_call2_v2 val_main_call2_v4 bcast_one bcast_one i

/-! ## The later layers, the gate and the shift -/

/-- The second layer followed by silu, at (e, j): the edge feature. -/
theorem feat_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (e : Fin 1600000) (j : Fin 64) :
    val_main_v42 (F := Ideal) x0 x1 x2 x3 x4 x5 x6 x7 (ix2 e j)
      = featAt (val_main_v6 (F := Ideal) x0 x2) (val_main_v13 (F := Ideal) x0 x3) (val_main_v24 (F := Ideal) x1 x2)
          (val_main_v31 (F := Ideal) x1 x3) x4 x5 x6 x7 e j := by
  rw [silu2_at, val_main_v41_apply, val_main_v38_apply, val_main_v40_apply, idx40, val_main_v39_apply, idx39]
  unfold featAt feat affine
  refine congrArg silu (congrArg (· + x7 (ix1 j)) (Finset.sum_congr rfl fun k _ => ?_))
  rw [lidx38, ridx38, silu1_at, pre1_at]

/-- The third layer at (e, j), over the edge feature. -/
theorem z3_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (e : Fin 1600000) (j : Fin 64) :
    val_main_v51 (F := Ideal) x0 x1 x2 x3 x4 x5 x6 x7 x8 x9 (ix2 e j)
      = affine (featAt (val_main_v6 (F := Ideal) x0 x2) (val_main_v13 (F := Ideal) x0 x3) (val_main_v24 (F := Ideal) x1 x2)
          (val_main_v31 (F := Ideal) x1 x3) x4 x5 x6 x7 e) (fun k => row x8 k) (fun j => x9 (ix1 j)) j := by
  rw [val_main_v51_apply, val_main_v48_apply, val_main_v50_apply, idx50, val_main_v49_apply, idx49]
  unfold affine
  refine congrArg (· + x9 (ix1 j)) (Finset.sum_congr rfl fun k _ => ?_)
  rw [lidx48, ridx48, feat_at]

/-- The gate of edge e: tanh of the one-column layer over silu of the third. -/
theorem gate_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (x10 : (⟨S64x1, .f32⟩ : BufTy).Contents (Elt Ideal))
    (e : Fin 1600000) :
    val_main_v54 (F := Ideal) x0 x1 x2 x3 x4 x5 x6 x7 x8 x9 x10 (ix2 e (0 : Fin 1))
      = gateAt (val_main_v6 (F := Ideal) x0 x2) (val_main_v13 (F := Ideal) x0 x3) (val_main_v24 (F := Ideal) x1 x2)
          (val_main_v31 (F := Ideal) x1 x3) x4 x5 x6 x7 x8 x9 x10 e := by
  rw [val_main_v54_apply, val_main_v53_apply, Ideal.hostUnary_tanh_def]
  unfold gateAt gate
  refine congrArg Ideal.tanh (Finset.sum_congr rfl fun k _ => ?_)
  rw [lidx53, ridx53, silu3_at, z3_at]

/-- The coordinate shift of edge e, component c. -/
theorem move_at (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (x10 : (⟨S64x1, .f32⟩ : BufTy).Contents (Elt Ideal))
    (e : Fin 1600000) (c : Fin 3) :
    val_main_v56 (F := Ideal) x0 x1 x2 x3 x4 x5 x6 x7 x8 x9 x10 (ix2 e c)
      = moveAt (val_main_v6 (F := Ideal) x0 x2) (val_main_v13 (F := Ideal) x0 x3) (val_main_v24 (F := Ideal) x1 x2)
          (val_main_v31 (F := Ideal) x1 x3) x4 x5 x6 x7 x8 x9 x10 e c := by
  rw [val_main_v56_apply, val_main_v55_apply, idx55, gate_at, val_main_v47_apply, val_main_v46_apply, idx46,
    val_main_v45_apply, val_main_v43_apply, rad_at, val_main_v44_apply, val_main_cst_7_apply, val_main_v14_apply]
  rfl

/-- The reference's first result is the squared distances of the gathered coordinate rows. -/
theorem radial_eq (x0 : (⟨S50000x3, .f32⟩ : BufTy).Contents (Elt Ideal)) (x2 x3 : (⟨S1600000, .i32⟩ : BufTy).Contents (Elt Ideal)) :
    val_main_v17 (F := Ideal) x0 x2 x3 = radial (val_main_v6 (F := Ideal) x0 x2) (val_main_v13 (F := Ideal) x0 x3) := by
  funext i
  obtain ⟨e, u, rfl⟩ : ∃ e u, i = ix2 e u := ⟨i 0, i 1, eq_ix2 i⟩
  rw [radial_ix2]
  exact rad_at x0 x2 x3 e u

/-- The reference's third result is the edge features. -/
theorem feature_eq (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    val_main_v42 (F := Ideal) x0 x1 x2 x3 x4 x5 x6 x7
      = feature (val_main_v6 (F := Ideal) x0 x2) (val_main_v13 (F := Ideal) x0 x3) (val_main_v24 (F := Ideal) x1 x2)
          (val_main_v31 (F := Ideal) x1 x3) x4 x5 x6 x7 := by
  funext i
  obtain ⟨e, j, rfl⟩ : ∃ e j, i = ix2 e j := ⟨i 0, i 1, eq_ix2 i⟩
  rw [feature_ix2]
  exact feat_at x0 x1 x2 x3 x4 x5 x6 x7 e j

/-- The reference's second result is the coordinate shifts. -/
theorem shift_eq (x0 : (⟨S50000x3, .f32⟩ : BufTy).Contents (Elt Ideal)) (x1 : (⟨S50000x64, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (x10 : (⟨S64x1, .f32⟩ : BufTy).Contents (Elt Ideal)) :
    val_main_v56 (F := Ideal) x0 x1 x2 x3 x4 x5 x6 x7 x8 x9 x10
      = shift (val_main_v6 (F := Ideal) x0 x2) (val_main_v13 (F := Ideal) x0 x3) (val_main_v24 (F := Ideal) x1 x2)
          (val_main_v31 (F := Ideal) x1 x3) x4 x5 x6 x7 x8 x9 x10 := by
  funext i
  obtain ⟨e, c, rfl⟩ : ∃ e c, i = ix2 e c := ⟨i 0, i 1, eq_ix2 i⟩
  rw [shift_ix2]
  exact move_at x0 x1 x2 x3 x4 x5 x6 x7 x8 x9 x10 e c

end Cert.Edge.Ref

end
-- ==== Proof.lean ====
/-
  A geometric message-passing layer on 1,600,000 edges: a blocked kernel against whole-array reference code, equal
  over the extended reals.

  Both programs first gather, for every edge, its two endpoints' coordinate rows and feature rows, with the same
  operations. From there the kernel handles 2000 edges per grid point and the reference all edges at once, but row e
  of every result depends only on row e of the four gathered arrays and on the weights: the squared distance
  rad = Σ_c (u c − v c)², the feature f = silu (silu ((rad, a, b) · W₁ + b₁) · W₂ + b₂), and the shift
  (u − v) / (√rad + ε) · tanh (silu (f · W₃ + b₃) · W₄) (`Cert.Edge`). The kernel multiplies rad by W₁'s first row
  and the joined features (a ‖ b) by its other 128 rows; the reference multiplies the joined 129-vector by all of W₁.
  These are one sum with its first term taken out, so the two agree by commutativity and associativity of + alone,
  and nothing below uses that the inputs are finite. The kernel's logistic function and the reference's
  1 / (1 + e^(−x)) are one function on the extended reals, as are the two programs' square root, tanh and quotient,
  and ε is the same number in both.

  `Cert.Edge.Final.run`: after the launch the kernel's three results are the specification's arrays of what the region
  was given. `Cert.Edge.Ref`: so are the reference's three results, of its own gathers. The gathers are the same
  terms of the arguments (`srcCoords_eq` … `dstFeats_eq`). The kernel's idealization rewrote nothing, so `preserves`
  is trivial, and the frames are the generated ones (the reference's is its run with the results dropped).
-/
import proofs.«106035_j15135464751165_1_alg».proof.Defs
import proofs.«106035_j15135464751165_1_alg».proof.Proof.Gen.Kernel
import proofs.«106035_j15135464751165_1_alg».proof.Proof.Gen.Kernel.Skeleton
import proofs.«106035_j15135464751165_1_alg».proof.Proof.Gen.Kernel.Launch
import proofs.«106035_j15135464751165_1_alg».proof.Proof.Gen.Kernel.Points
import proofs.«106035_j15135464751165_1_alg».proof.Proof.Gen.Kernel.Frame
import proofs.«106035_j15135464751165_1_alg».proof.Proof.Gen.KernelIdeal
import proofs.«106035_j15135464751165_1_alg».proof.Proof.Gen.KernelIdeal.Skeleton
import proofs.«106035_j15135464751165_1_alg».proof.Proof.Gen.KernelIdeal.Launch
import proofs.«106035_j15135464751165_1_alg».proof.Proof.Gen.KernelIdeal.Points
import proofs.«106035_j15135464751165_1_alg».proof.Proof.Gen.KernelIdeal.Frame
import proofs.«106035_j15135464751165_1_alg».proof.Proof.Gen.KernelIdeal.Value
import proofs.«106035_j15135464751165_1_alg».proof.Proof.Gen.ReferenceIdeal
import proofs.«106035_j15135464751165_1_alg».proof.Proof.Gen.ReferenceIdeal.Run
import proofs.«106035_j15135464751165_1_alg».proof.Proof.Gen.ReferenceIdeal.Read
import proofs.«106035_j15135464751165_1_alg».proof.Proof.Gen.Pre_finite_inputs
import proofs.«106035_j15135464751165_1_alg».proof.Proof.EdgeSpec
import proofs.«106035_j15135464751165_1_alg».proof.Proof.KHost
import proofs.«106035_j15135464751165_1_alg».proof.Proof.KFinal
import proofs.«106035_j15135464751165_1_alg».proof.Proof.RefIs
import Idealize.ShloMosaic.Adequacy
import Idealize.ShloMosaic.Init

noncomputable section

namespace Cert.Proof

open Idealize.ShloMosaic Idealize.ShloMosaic.TcCoe Idealize.SL.Sem Cert.Edge

/-! ## The four gathered arrays are the same terms in both programs -/

section Gathers

variable (m : (ℓ : Loc Cert.KernelIdeal.nD Cert.KernelIdeal.τ Cert.KernelIdeal.sig) → Buf (Elt Ideal) ℓ)

theorem srcCoords_eq (c : Dev Cert.KernelIdeal.nD) :
    Final.xsA m c = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) :=
  (Host.srcCoords m c).trans rfl

theorem dstCoords_eq (c : Dev Cert.KernelIdeal.nD) :
    Final.xdA m c = Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) :=
  (Host.dstCoords m c).trans rfl

theorem srcFeats_eq (c : Dev Cert.KernelIdeal.nD) :
    Final.hsA m c = Cert.ReferenceIdeal.Read.val_main_v24 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
  (Host.srcFeats m c).trans rfl

theorem dstFeats_eq (c : Dev Cert.KernelIdeal.nD) :
    Final.hdA m c = Cert.ReferenceIdeal.Read.val_main_v31 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) :=
  (Host.dstFeats m c).trans rfl

end Gathers

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end with the specification's three arrays of the same gathered arrays and weights. -/
theorem algebraic : Cert.algebraic_KernelIdeal_ReferenceIdeal := by
  intro m ρ m' ρ' _ hagree
  refine ⟨fun c => radial (Final.xsA m c) (Final.xdA m c),
    fun c => shift (Final.xsA m c) (Final.xdA m c) (Final.hsA m c) (Final.hdA m c) (Final.W1A m c) (Final.b1A m c)
      (Final.W2A m c) (Final.b2A m c) (Final.W3A m c) (Final.b3A m c) (Final.W4A m c),
    fun c => feature (Final.xsA m c) (Final.xdA m c) (Final.hsA m c) (Final.hdA m c) (Final.W1A m c) (Final.b1A m c)
      (Final.W2A m c) (Final.b2A m c),
    Final.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2.1.trans ?_, (h c).2.2.2⟩
  · rw [Cert.ReferenceIdeal.Read.val_main_v17_eq, a0, a2, a3, Ref.radial_eq, ← srcCoords_eq m c, ← dstCoords_eq m c]
  · rw [Cert.ReferenceIdeal.Read.val_main_v56_eq, a0, a1, a2, a3, a4, a5, a6, a7, a8, a9, a10, Ref.shift_eq,
      ← srcCoords_eq m c, ← dstCoords_eq m c, ← srcFeats_eq m c, ← dstFeats_eq m c]
  · rw [Cert.ReferenceIdeal.Read.val_main_v42_eq, a0, a1, a2, a3, a4, a5, a6, a7, Ref.feature_eq,
      ← srcCoords_eq m c, ← dstCoords_eq m c, ← srcFeats_eq m c, ← dstFeats_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
